-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x100 : Shape := ⟨2, ![262144, 100]⟩
abbrev S100x32 : Shape := ⟨2, ![100, 32]⟩
abbrev S1x32 : Shape := ⟨2, ![1, 32]⟩
abbrev S32x10 : Shape := ⟨2, ![32, 10]⟩
abbrev S1x10 : Shape := ⟨2, ![1, 10]⟩
abbrev S_ : Shape := ⟨0, ![]⟩

class Facts : Prop where
  bcast_S_S262144x100 : S_.BroadcastsInDim S262144x100 (![] : Fin 0 → Fin S262144x100.rank)
  reducesTo_S262144x100_S_d0_1 : S262144x100.ReducesTo [0, 1] S_
  h_S_ : 0 < S_.numel
  bcast_S_S100x32 : S_.BroadcastsInDim S100x32 (![] : Fin 0 → Fin S100x32.rank)
  reducesTo_S100x32_S_d0_1 : S100x32.ReducesTo [0, 1] S_
  bcast_S_S1x32 : S_.BroadcastsInDim S1x32 (![] : Fin 0 → Fin S1x32.rank)
  reducesTo_S1x32_S_d0_1 : S1x32.ReducesTo [0, 1] S_
  bcast_S_S32x10 : S_.BroadcastsInDim S32x10 (![] : Fin 0 → Fin S32x10.rank)
  reducesTo_S32x10_S_d0_1 : S32x10.ReducesTo [0, 1] S_
  bcast_S_S1x10 : S_.BroadcastsInDim S1x10 (![] : Fin 0 → Fin S1x10.rank)
  reducesTo_S1x10_S_d0_1 : S1x10.ReducesTo [0, 1] S_

variable [Facts]

def fn_part1 {F : FTy → Type} [FloatOps F] (main_arg4 : FVec F S1x10 .f32) (main_v13 : IVec S_ 1) (main_v16 : IVec S32x10 1) : IVec S_ 1 :=
  let main_c_5 : IVec S_ 1 := constantI S_ 1 1#1
  let main_v17 : IVec S_ 1 := (fun x v => Host.reduce IntOp.andi x v reducesTo_S32x10_S_d0_1 h_S_) main_v16 main_c_5
  let main_v18 : IVec S_ 1 := andi main_v13 main_v17
  let main_v19 : FVec F S1x10 .f32 := Host.absf main_arg4
  let main_cst_6 : FVec F S_ .f32 := constant S_ .f32 0x7F800000#32
  let main_v20 : FVec F S1x10 .f32 := broadcastInDim S1x10 ![] bcast_S_S1x10 main_cst_6
  let main_v21 : IVec S1x10 1 := cmpf .olt main_v19 main_v20
  let main_c_7 : IVec S_ 1 := constantI S_ 1 1#1
  let main_v22 : IVec S_ 1 := (fun x v => Host.reduce IntOp.andi x v reducesTo_S1x10_S_d0_1 h_S_) main_v21 main_c_7
  let main_v23 : IVec S_ 1 := andi main_v18 main_v22
  main_v23

def fn {F : FTy → Type} [FloatOps F] (main_arg0 : FVec F S262144x100 .f32) (main_arg1 : FVec F S100x32 .f32) (main_arg2 : FVec F S1x32 .f32) (main_arg3 : FVec F S32x10 .f32) (main_arg4 : FVec F S1x10 .f32) : IVec S_ 1 :=
  let main_v0 : FVec F S262144x100 .f32 := Host.absf main_arg0
  let main_cst : FVec F S_ .f32 := constant S_ .f32 0x7F800000#32
  let main_v1 : FVec F S262144x100 .f32 := broadcastInDim S262144x100 ![] bcast_S_S262144x100 main_cst
  let main_v2 : IVec S262144x100 1 := cmpf .olt main_v0 main_v1
  let main_c : IVec S_ 1 := constantI S_ 1 1#1
  let main_v3 : IVec S_ 1 := (fun x v => Host.reduce IntOp.andi x v reducesTo_S262144x100_S_d0_1 h_S_) main_v2 main_c
  let main_v4 : FVec F S100x32 .f32 := Host.absf main_arg1
  let main_cst_0 : FVec F S_ .f32 := constant S_ .f32 0x7F800000#32
  let main_v5 : FVec F S100x32 .f32 := broadcastInDim S100x32 ![] bcast_S_S100x32 main_cst_0
  let main_v6 : IVec S100x32 1 := cmpf .olt main_v4 main_v5
  let main_c_1 : IVec S_ 1 := constantI S_ 1 1#1
  let main_v7 : IVec S_ 1 := (fun x v => Host.reduce IntOp.andi x v reducesTo_S100x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x10 .f32 := Host.absf main_arg3
  let main_cst_4 : FVec F S_ .f32 := constant S_ .f32 0x7F800000#32
  let main_v15 : FVec F S32x10 .f32 := broadcastInDim S32x10 ![] bcast_S_S32x10 main_cst_4
  let main_v16 : IVec S32x10 1 := cmpf .olt main_v14 main_v15
  fn_part1 (F := F) main_arg4 main_v13 main_v16
-- ==== Kernel.lean ====
abbrev S262144x100 : Shape := ⟨2, ![262144, 100]⟩
abbrev S100x32 : Shape := ⟨2, ![100, 32]⟩
abbrev S1x32 : Shape := ⟨2, ![1, 32]⟩
abbrev S32x10 : Shape := ⟨2, ![32, 10]⟩
abbrev S1x10 : Shape := ⟨2, ![1, 10]⟩
abbrev S_ : Shape := ⟨0, ![]⟩
abbrev S100x128 : Shape := ⟨2, ![100, 128]⟩
abbrev S1 : Shape := ⟨1, ![1]⟩
abbrev S1x128 : Shape := ⟨2, ![1, 128]⟩
abbrev S128x128 : Shape := ⟨2, ![128, 128]⟩
abbrev S2 : Shape := ⟨1, ![2]⟩
abbrev S262144x10 : Shape := ⟨2, ![262144, 10]⟩
abbrev S8192x100 : Shape := ⟨2, ![8192, 100]⟩
abbrev S8192x10 : Shape := ⟨2, ![8192, 10]⟩
abbrev S8192x128 : Shape := ⟨2, ![8192, 128]⟩

abbrev nBuf : Space → Nat
  | .hbm => 31
  | .vmem => 8
  | .smem => 0
  | _ => 0

abbrev bufTy : (tb : Table) → Fin (tcTables nBuf tb) → BufTy
  | .hbm, ⟨0, _⟩ => ⟨S262144x100, .f32⟩
  | .hbm, ⟨1, _⟩ => ⟨S100x32, .f32⟩
  | .hbm, ⟨2, _⟩ => ⟨S1x32, .f32⟩
  | .hbm, ⟨3, _⟩ => ⟨S32x10, .f32⟩
  | .hbm, ⟨4, _⟩ => ⟨S1x10, .f32⟩
  | .hbm, ⟨5, _⟩ => ⟨S_, .f32⟩
  | .hbm, ⟨6, _⟩ => ⟨S100x128, .f32⟩
  | .hbm, ⟨7, _⟩ => ⟨S_, .i32⟩
  | .hbm, ⟨8, _⟩ => ⟨S1, .i32⟩
  | .hbm, ⟨9, _⟩ => ⟨S100x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S1x128, .f32⟩
  | .hbm, ⟨15, _⟩ => ⟨S_, .f32⟩
  | .hbm, ⟨16, _⟩ => ⟨S128x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S128x128, .f32⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S1x128, .f32⟩
  | .hbm, ⟨28, _⟩ => ⟨S100x128, .bf16⟩
  | .hbm, ⟨29, _⟩ => ⟨S128x128, .bf16⟩
  | .hbm, ⟨30, _⟩ => ⟨S262144x10, .f32⟩
  | .local _ .vmem, ⟨0, _⟩ => ⟨S8192x100, .f32⟩
  | .local _ .vmem, ⟨1, _⟩ => ⟨S8192x100, .f32⟩
  | .local _ .vmem, ⟨2, _⟩ => ⟨S100x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S8192x10, .f32⟩
  | .local _ .vmem, ⟨7, _⟩ => ⟨S8192x10, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S100x128 : S_.BroadcastsInDim S100x128 (![] : Fin 0 → Fin S100x128.rank)
  bcast_S_S1 : S_.BroadcastsInDim S1 (![] : Fin 0 → Fin S1.rank)
  bcast_S_S1x128 : S_.BroadcastsInDim S1x128 (![] : Fin 0 → Fin S1x128.rank)
  bcast_S_S128x128 : S_.BroadcastsInDim S128x128 (![] : Fin 0 → Fin S128x128.rank)
  concatenates_S1_S1_S2_d0 : Shape.Concatenates [S1, S1] S2 0
  bitsLt_bf16_f32 : FTy.bits .bf16 < FTy.bits .f32
  inb_S8192x100_S8192x100_0_0 : ∀ a, (![0, 0] : Fin 2 → Nat) a + S8192x100.size a ≤ S8192x100.size a
  h_S8192x100 : 0 < S8192x100.numel
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S8192x128_o0_0_S8192x10 : S8192x128.Slices ![0, 0] S8192x10
  inb_S8192x10_S8192x10_0_0 : ∀ a, (![0, 0] : Fin 2 → Nat) a + S8192x10.size a ≤ S8192x10.size a
  h_S8192x10 : 0 < S8192x10.numel
  scatter_S100x128_S1_S100x32_01_n_1_0_wf : ScatterDims.WF S100x128 S1 S100x32 [0, 1] [] [1] 0
  scatter_S1x128_S1_S1x32_01_n_1_0_wf : ScatterDims.WF S1x128 S1 S1x32 [0, 1] [] [1] 0
  scatter_S128x128_S2_S32x10_01_n_01_0_wf : ScatterDims.WF S128x128 S2 S32x10 [0, 1] [] [0, 1] 0
  scatter_S1x128_S1_S1x10_01_n_1_0_wf : ScatterDims.WF S1x128 S1 S1x10 [0, 1] [] [1] 0
  dot_S8192x100_S100x128_S8192x128_1_0_0_1_n_n_wf : DotDims.WF S8192x100 S100x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x100.size a ≤ S262144x100.size a
  hwx0_0 : ∀ i : grid0.Coords, EltTy.bits .f32 = 32 ∨ (Rect.block (s := S262144x100) S8192x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .bf16 = 32 ∨ (Rect.block (s := S100x128) S100x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x10.size a ≤ S262144x10.size a
  hwx0_5 : ∀ i : grid0.Coords, EltTy.bits .f32 = 32 ∨ (Rect.block (s := S262144x10) S8192x10.size (cc0_transform_5 i) (hinb0_5 i)).WholeWords (EltTy.packing .f32)

variable [Facts₀]

def scatter_S100x128_S1_S100x32_01_n_1_0 : ScatterDims S100x128 S1 S100x32 where
  updateWindowDims := [0, 1]
  insertedWindowDims := []
  scatterDimsToOperandDims := [1]
  indexVectorDim := 0
  wf := scatter_S100x128_S1_S100x32_01_n_1_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def scatter_S128x128_S2_S32x10_01_n_01_0 : ScatterDims S128x128 S2 S32x10 where
  updateWindowDims := [0, 1]
  insertedWindowDims := []
  scatterDimsToOperandDims := [0, 1]
  indexVectorDim := 0
  wf := scatter_S128x128_S2_S32x10_01_n_01_0_wf
def scatter_S1x128_S1_S1x10_01_n_1_0 : ScatterDims S1x128 S1 S1x10 where
  updateWindowDims := [0, 1]
  insertedWindowDims := []
  scatterDimsToOperandDims := [1]
  indexVectorDim := 0
  wf := scatter_S1x128_S1_S1x10_01_n_1_0_wf
def dot_S8192x100_S100x128_S8192x128_1_0_0_1_n_n : DotDims S8192x100 S100x128 S8192x128 where
  lhsContracting := [1]
  rhsContracting := [0]
  lhsNonContracting := [0]
  rhsNonContracting := [1]
  lhsBatch := []
  rhsBatch := []
  wf := dot_S8192x100_S100x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S8192x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x100 : Shape := ⟨2, ![262144, 100]⟩
abbrev S100x32 : Shape := ⟨2, ![100, 32]⟩
abbrev S1x32 : Shape := ⟨2, ![1, 32]⟩
abbrev S32x10 : Shape := ⟨2, ![32, 10]⟩
abbrev S1x10 : Shape := ⟨2, ![1, 10]⟩
abbrev S_ : Shape := ⟨0, ![]⟩
abbrev S100x128 : Shape := ⟨2, ![100, 128]⟩
abbrev S1 : Shape := ⟨1, ![1]⟩
abbrev S1x128 : Shape := ⟨2, ![1, 128]⟩
abbrev S2 : Shape := ⟨1, ![2]⟩
abbrev S128x128 : Shape := ⟨2, ![128, 128]⟩
abbrev S10 : Shape := ⟨1, ![10]⟩
abbrev S262144x128 : Shape := ⟨2, ![262144, 128]⟩
abbrev S4096x100 : Shape := ⟨2, ![4096, 100]⟩
abbrev S4096x128 : Shape := ⟨2, ![4096, 128]⟩
abbrev S262144x10 : Shape := ⟨2, ![262144, 10]⟩

abbrev nBuf : Space → Nat
  | .hbm => 39
  | .vmem => 7
  | .smem => 0
  | _ => 0

abbrev bufTy : (tb : Table) → Fin (tcTables nBuf tb) → BufTy
  | .hbm, ⟨0, _⟩ => ⟨S262144x100, .f32⟩
  | .hbm, ⟨1, _⟩ => ⟨S100x32, .f32⟩
  | .hbm, ⟨2, _⟩ => ⟨S1x32, .f32⟩
  | .hbm, ⟨3, _⟩ => ⟨S32x10, .f32⟩
  | .hbm, ⟨4, _⟩ => ⟨S1x10, .f32⟩
  | .hbm, ⟨5, _⟩ => ⟨S_, .f32⟩
  | .hbm, ⟨6, _⟩ => ⟨S100x128, .f32⟩
  | .hbm, ⟨7, _⟩ => ⟨S_, .i32⟩
  | .hbm, ⟨8, _⟩ => ⟨S1, .i32⟩
  | .hbm, ⟨9, _⟩ => ⟨S100x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S128x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x128, .f32⟩
  | .hbm, ⟨30, _⟩ => ⟨S10, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S128x128, .f32⟩
  | .hbm, ⟨37, _⟩ => ⟨S262144x128, .f32⟩
  | .hbm, ⟨38, _⟩ => ⟨S262144x10, .f32⟩
  | .local _ .vmem, ⟨0, _⟩ => ⟨S4096x100, .f32⟩
  | .local _ .vmem, ⟨1, _⟩ => ⟨S4096x100, .f32⟩
  | .local _ .vmem, ⟨2, _⟩ => ⟨S100x128, .f32⟩
  | .local _ .vmem, ⟨3, _⟩ => ⟨S1x128, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | _, _ => ⟨S262144x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_c_6 : Ref sig .tc := ⟨.hbm, 24, rfl⟩
abbrev main_v11 : Ref sig .tc := ⟨.hbm, 25, rfl⟩
abbrev main_c_7 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_8 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S100x128 : S_.BroadcastsInDim S100x128 (![] : Fin 0 → Fin S100x128.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  bcast_S_S128x128 : S_.BroadcastsInDim S128x128 (![] : Fin 0 → Fin S128x128.rank)
  shapeCasts_S1x10_S10 : S1x10.ShapeCasts S10
  inb_S4096x100_S4096x100_0_0 : ∀ a, (![0, 0] : Fin 2 → Nat) a + S4096x100.size a ≤ S4096x100.size a
  h_S4096x100 : 0 < S4096x100.numel
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  slices_S262144x128_S262144x10_0_0 : S262144x128.Slices ![0, 0] S262144x10
  scatter_S100x128_S1_S100x32_01_n_1_0_wf : ScatterDims.WF S100x128 S1 S100x32 [0, 1] [] [1] 0
  scatter_S1x128_S1_S1x32_01_n_1_0_wf : ScatterDims.WF S1x128 S1 S1x32 [0, 1] [] [1] 0
  scatter_S1x128_S2_S__n_01_01_0_wf : ScatterDims.WF S1x128 S2 S_ [] [0, 1] [0, 1] 0
  scatter_S128x128_S2_S32x10_01_n_01_0_wf : ScatterDims.WF S128x128 S2 S32x10 [0, 1] [] [0, 1] 0
  scatter_S128x128_S2_S10_0_0_01_0_wf : ScatterDims.WF S128x128 S2 S10 [0] [0] [0, 1] 0
  dot_S4096x100_S100x128_S4096x128_1_0_0_1_n_n_wf : DotDims.WF S4096x100 S100x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S262144x100.size a
  hwx0_0 : ∀ i : grid0.Coords, EltTy.bits .f32 = 32 ∨ (Rect.block (s := S262144x100) S4096x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)

variable [Facts₀]

def scatter_S100x128_S1_S100x32_01_n_1_0 : ScatterDims S100x128 S1 S100x32 where
  updateWindowDims := [0, 1]
  insertedWindowDims := []
  scatterDimsToOperandDims := [1]
  indexVectorDim := 0
  wf := scatter_S100x128_S1_S100x32_01_n_1_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def scatter_S128x128_S2_S32x10_01_n_01_0 : ScatterDims S128x128 S2 S32x10 where
  updateWindowDims := [0, 1]
  insertedWindowDims := []
  scatterDimsToOperandDims := [0, 1]
  indexVectorDim := 0
  wf := scatter_S128x128_S2_S32x10_01_n_01_0_wf
def scatter_S128x128_S2_S10_0_0_01_0 : ScatterDims S128x128 S2 S10 where
  updateWindowDims := [0]
  insertedWindowDims := [0]
  scatterDimsToOperandDims := [0, 1]
  indexVectorDim := 0
  wf := scatter_S128x128_S2_S10_0_0_01_0_wf
def dot_S4096x100_S100x128_S4096x128_1_0_0_1_n_n : DotDims S4096x100 S100x128 S4096x128 where
  lhsContracting := [1]
  rhsContracting := [0]
  lhsNonContracting := [0]
  rhsNonContracting := [1]
  lhsBatch := []
  rhsBatch := []
  wf := dot_S4096x100_S100x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  A two-layer perceptron  y = relu(x · W1 + B1) · W2  whose hidden axis is padded to 128 lanes, read entry by entry
  on the extended reals, and the two ways its output bias is carried.

  Both programs pad the weights with zeros: w1 [100, 32] into [100, 128] and w2 [32, 10] into [128, 128], so hidden
  lanes 32 … 127 are relu(0 + 0) = 0 against zero rows of the second layer and add nothing.  One program adds the
  padded bias b2 after the second product.  The other spends the spare hidden lane 32 on it: the first-layer bias
  is set to 1 there (the lane is relu(0 + 1) = 1 whatever x is, since every weight of that column is 0) and row 32
  of the second layer holds b2, so the product itself contributes 1 · b2.  The two agree on every column below 10:
  the sums differ only in the term of lane 32, which is 0 on one side and b2 on the other.
-/
import Idealize.ShloMosaic.Lib.ValueIdx
import Idealize.ShloMosaic.PureOps.Ideal.Laws

noncomputable section

namespace Cert.Mlp

open Idealize.ShloMosaic Idealize.ShloMosaic.ValueIdx

/-- Hidden lane `k` of row `r`: relu of the first layer's product plus its bias. -/
def hid {n : ℕ} (x : (⟨2, ![n, 100]⟩ : Shape).Idx → EReal) (W1 : (⟨2, ![100, 128]⟩ : Shape).Idx → EReal)
    (B1 : (⟨2, ![1, 128]⟩ : Shape).Idx → EReal) (r : Fin n) (k : Fin 128) : EReal :=
  max ((∑ i : Fin 100, x (ix2 r i) * W1 (ix2 i k)) + B1 (ix2 0 k)) 0

/-- Entry (r, q) of the second layer's product over the 128 hidden lanes. -/
def out {n : ℕ} (x : (⟨2, ![n, 100]⟩ : Shape).Idx → EReal) (W1 : (⟨2, ![100, 128]⟩ : Shape).Idx → EReal)
    (B1 : (⟨2, ![1, 128]⟩ : Shape).Idx → EReal) (W2 : (⟨2, ![128, 128]⟩ : Shape).Idx → EReal) (r : Fin n) (q : Fin 128) : EReal :=
  ∑ k : Fin 128, hid x W1 B1 r k * W2 (ix2 k q)

/-- An array padded with zero columns on the right. -/
def padCols {a b B : ℕ} (v : (⟨2, ![a, b]⟩ : Shape).Idx → EReal) : (⟨2, ![a, B]⟩ : Shape).Idx → EReal :=
  fun i => if h : (i 1).val < b then v (ix2 (i 0) ⟨(i 1).val, h⟩) else 0

/-- An array padded with zero rows below and zero columns on the right. -/
def padBoth {a b A B : ℕ} (v : (⟨2, ![a, b]⟩ : Shape).Idx → EReal) : (⟨2, ![A, B]⟩ : Shape).Idx → EReal :=
  fun i => if h : (i 0).val < a ∧ (i 1).val < b then v (ix2 ⟨(i 0).val, h.1⟩ ⟨(i 1).val, h.2⟩) else 0

/-- The padded first-layer bias with the spare lane 32 set to one. -/
def biasOne (b1 : (⟨2, ![1, 32]⟩ : Shape).Idx → EReal) : (⟨2, ![1, 128]⟩ : Shape).Idx → EReal :=
  fun i => if (i 1).val = 32 then 1 else padCols b1 i

/-- The padded second layer with the output bias written into row 32. -/
def foldedW2 (w2 : (⟨2, ![32, 10]⟩ : Shape).Idx → EReal) (b2 : (⟨2, ![1, 10]⟩ : Shape).Idx → EReal) :
    (⟨2, ![128, 128]⟩ : Shape).Idx → EReal :=
  fun i => if h : (i 0).val = 32 ∧ (i 1).val < 10 then b2 (ix2 0 ⟨(i 1).val, h.2⟩) else padBoth w2 i

/-- The network's output: the product over padded weights plus the padded output bias, on the first ten columns. -/
def result (x : (⟨2, ![262144, 100]⟩ : Shape).Idx → EReal) (w1 : (⟨2, ![100, 32]⟩ : Shape).Idx → EReal)
    (b1 : (⟨2, ![1, 32]⟩ : Shape).Idx → EReal) (w2 : (⟨2, ![32, 10]⟩ : Shape).Idx → EReal)
    (b2 : (⟨2, ![1, 10]⟩ : Shape).Idx → EReal) : (⟨2, ![262144, 10]⟩ : Shape).Idx → EReal :=
  fun i => out x (padCols w1) (padCols b1) (padBoth w2) (i 0) (Fin.castLE (by decide) (i 1))
    + padCols (B := 128) b2 (ix2 0 (Fin.castLE (by decide) (i 1)))

/-- Carrying the output bias on the spare hidden lane gives the same entry as adding it after the product. -/
theorem folded_eq {n : ℕ} (x : (⟨2, ![n, 100]⟩ : Shape).Idx → EReal) (w1 : (⟨2, ![100, 32]⟩ : Shape).Idx → EReal)
    (b1 : (⟨2, ![1, 32]⟩ : Shape).Idx → EReal) (w2 : (⟨2, ![32, 10]⟩ : Shape).Idx → EReal)
    (b2 : (⟨2, ![1, 10]⟩ : Shape).Idx → EReal) (r : Fin n) (q : Fin 128) (hq : q.val < 10) :
    out x (padCols w1) (biasOne b1) (foldedW2 w2 b2) r q
      = out x (padCols w1) (padCols b1) (padBoth w2) r q + padCols (B := 128) b2 (ix2 0 q) := by
  have k32 : (32 : Fin 128) ∈ (Finset.univ : Finset (Fin 128)) := Finset.mem_univ _
  -- every first-layer weight of column 32 is a padding zero
  have hW : ∀ i : Fin 100, padCols (B := 128) w1 (ix2 i (32 : Fin 128)) = 0 := fun i => by
    simp [padCols]
  -- so the spare lane is relu(0 + 1) = 1
  have h1 : hid x (padCols w1) (biasOne b1) r 32 = 1 := by
    have hb : biasOne b1 (ix2 0 (32 : Fin 128)) = 1 := by simp [biasOne]
    unfold hid
    simp only [hW, mul_zero, Finset.sum_const_zero, zero_add, hb]
    exact max_eq_left zero_le_one
  -- row 32 of the folded second layer is the output bias, and a padding zero otherwise
  have h2 : foldedW2 w2 b2 (ix2 (32 : Fin 128) q) = padCols (B := 128) b2 (ix2 0 q) := by
    simp [foldedW2, padCols, hq]
  have h3 : padBoth (A := 128) (B := 128) w2 (ix2 (32 : Fin 128) q) = 0 := by
    simp [padBoth]
  -- every other lane is the same on both sides
  have hrest : ∀ k ∈ (Finset.univ : Finset (Fin 128)).erase 32,
      hid x (padCols w1) (biasOne b1) r k * foldedW2 w2 b2 (ix2 k q)
        = hid x (padCols w1) (padCols b1) r k * padBoth w2 (ix2 k q) := by
    intro k hk
    have hkv : k.val ≠ 32 := fun h => (Finset.mem_erase.mp hk).1 (Fin.ext h)
    have e1 : biasOne b1 (ix2 0 k) = padCols b1 (ix2 0 k) := by simp [biasOne, hkv]
    have e2 : foldedW2 w2 b2 (ix2 k q) = padBoth w2 (ix2 k q) := by simp [foldedW2, hkv]
    unfold hid
    rw [e1, e2]
  unfold out
  rw [← Finset.add_sum_erase _ _ k32, ← Finset.add_sum_erase _ _ k32, Finset.sum_congr rfl hrest, h1, h2, h3,
    mul_zero, zero_add, one_mul, add_comm]

end Cert.Mlp

end
-- ==== Proof.LibScatterSet.lean ====
/-
  A scatter whose body keeps the update (`x.at[…].set(v)`) read at one entry of the result.

  The scatter is a left fold over the update's entries in row-major order; each entry that lands inside the operand
  overwrites the element it lands on.  So an element no update entry lands on keeps the operand's value, and an
  element exactly one update entry lands on holds that entry.  Where an update entry lands is its window coordinate
  plus the start read off the index vector, on every axis.
-/
import Idealize.ShloMosaic.PureOps.ShapeOps

namespace Cert.ScatterSet

open Idealize.ShloMosaic

variable {s si u : Shape} {w : Nat} {α : Type} (d : ScatterDims s si u)

/-- One step of the fold: the entry numbered `n` (row-major) overwrites the element it lands on, when it lands
    inside the operand, and changes nothing when it does not. -/
private def step (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The scatter is the left fold of `step` over the update's entries in row-major order. -/
private theorem scatter_eq_foldl (x : s.Idx → α) (idx : IVec si w) (upd : u.Idx → α) :
    Host.scatter d (fun _ b => b) x idx upd = (List.finRange u.numel).foldl (step d idx upd) x := rfl

/-- A step whose entry does not land on `i` keeps the value at `i`. -/
private theorem step_of_ne (idx : IVec si w) (upd : u.Idx → α) (r : s.Idx → α) (n : Fin u.numel) (i : s.Idx)
    (h : d.resultIdx? (u.rowMajor.symm n) idx ≠ some i) : step d idx upd r n i = r i := by
  unfold step
  cases hc : d.resultIdx? (u.rowMajor.symm n) idx with
  | none => rfl
  | some i₀ =>
    have hne : i ≠ i₀ := fun e => h (by rw [hc, e])
    simp only [if_neg hne]

/-- A step whose entry lands on `i` leaves that entry at `i`. -/
private theorem step_of_eq (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  exact if_pos rfl

/-- The fold over any list of entries none of which lands on `i` keeps the value at `i`. -/
private theorem foldl_of_miss (idx : IVec si w) (upd : u.Idx → α) (i : s.Idx) :
    ∀ (l : List (Fin u.numel)) (r : s.Idx → α),
      (∀ n ∈ l, d.resultIdx? (u.rowMajor.symm n) idx ≠ some i) → l.foldl (step d idx upd) r i = r i
  | [], _, _ => rfl
  | n :: l, r, h => by
    rw [List.foldl_cons, foldl_of_miss idx upd i l _ fun m hm => h m (List.mem_cons_of_mem _ hm)]
    exact step_of_ne d idx upd r n i (h n (List.mem_cons_self ..))

/-- The fold over a list without repetition in which exactly the entry `n₀` lands on `i` leaves that entry at `i`:
    up to `n₀` the value at `i` does not matter, at `n₀` it becomes the entry, and after it nothing lands on `i`. -/
private theorem foldl_of_hit (idx : IVec si w) (upd : u.Idx → α) (i : s.Idx) (n₀ : Fin u.numel)
    (h₀ : d.resultIdx? (u.rowMajor.symm n₀) idx = some i) :
    ∀ (l : List (Fin u.numel)) (r : s.Idx → α), l.Nodup → n₀ ∈ l →
      (∀ n ∈ l, d.resultIdx? (u.rowMajor.symm n) idx = some i → n = n₀) →
      l.foldl (step d idx upd) r i = upd (u.rowMajor.symm n₀)
  | [], _, _, hm, _ => absurd hm (List.not_mem_nil)
  | n :: l, r, hnd, hm, hu => by
    rw [List.foldl_cons]
    have hnd' := List.nodup_cons.1 hnd
    by_cases hn : n = n₀
    · subst hn
      rw [foldl_of_miss d idx upd i l _ fun m hml e => hnd'.1 (hu m (List.mem_cons_of_mem _ hml) e ▸ hml)]
      exact step_of_eq d idx upd r n i h₀
    · have hml : n₀ ∈ l := by
        rcases List.mem_cons.1 hm with e | e
        · exact absurd e.symm hn
        · exact e
      exact foldl_of_hit idx upd i n₀ h₀ l _ hnd'.2 hml fun m hm' => hu m (List.mem_cons_of_mem _ hm')

/-- An element no update entry lands on keeps the operand's value. -/
theorem apply_of_miss (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_of_miss d idx upd i _ x fun n _ => h _

/-- An element exactly one update entry lands on holds that entry. -/
theorem apply_of_hit (x : s.Idx → α) (idx : IVec si w) (upd : u.Idx → α) (i : s.Idx) (j : u.Idx)
    (hj : d.resultIdx? j idx = some i) (huniq : ∀ j' : u.Idx, d.resultIdx? j' idx = some i → j' = j) :
    Host.scatter d (fun _ b => b) x idx upd i = upd j := by
  rw [scatter_eq_foldl]
  have h₀ : d.resultIdx? (u.rowMajor.symm (u.rowMajor j)) idx = some i := by
    rw [Equiv.symm_apply_apply]; exact hj
  have := foldl_of_hit d idx upd i (u.rowMajor j) h₀ (List.finRange u.numel) x (List.nodup_finRange _)
    (List.mem_finRange _) fun n _ hn => by
      have := huniq _ hn
      rw [← this, Equiv.apply_symm_apply]
  rw [this, Equiv.symm_apply_apply]

/-- Where an update entry lands, from the start and the window coordinate on every axis. -/
theorem resultIdx?_eq_some_iff (idx : IVec si w) (j : u.Idx) (i : s.Idx) :
    d.resultIdx? j idx = some i ↔ ∀ a : Fin s.rank, d.start j idx a + (d.window j a : Int) = ((i a).val : Int) := by
  unfold ScatterDims.resultIdx?
  constructor
  · intro h a
    split at h
    · rename_i hb
      have he := Option.some.inj h
      have hv : (d.start j idx a + (d.window j a : Int)).toNat = (i a).val := by
        rw [← he]
      have := (hb a).1
      omega
    · exact absurd h (by simp)
  · intro h
    have hb : ∀ a, 0 ≤ d.start j idx a + (d.window j a : Int) ∧ d.start j idx a + (d.window j a : Int) < s.size a := by
      intro a
      have := (i a).isLt
      have := h a
      omega
    rw [dif_pos hb]
    congr 1
    funext a
    apply Fin.ext
    have := h a
    show (d.start j idx a + (d.window j a : Int)).toNat = (i a).val
    omega

end Cert.ScatterSet
-- ==== Proof.KernelPads.lean ====
/-
  The padded weights and biases as the kernel's region finds them: each is a zero array with the argument written
  into its top-left corner (a scatter at start 0 whose body keeps the update), and the two weight arrays then change
  float format, which is the identity on the extended reals.
-/
import proofs.«132224_g2000401138181295_pallasbulk_285_2_alg».proof.Proof.Gen.KernelIdeal.Frame
import proofs.«132224_g2000401138181295_pallasbulk_285_2_alg».proof.Proof.Spec
import proofs.«132224_g2000401138181295_pallasbulk_285_2_alg».proof.Proof.LibScatterSet
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Pads

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## A corner write into a rank-2 array -/

section Corner

variable {α : Type} {A B a b : ℕ} {si : Shape} {w : ℕ}

/-- A start read off an index vector whose every word is zero is zero on every axis. -/
theorem start_zero {s u : Shape} (d : ScatterDims s si u) (idx : IVec si w) (h0 : ∀ k, idx k = 0#w)
    (j : u.Idx) (k : Fin s.rank) : d.start j idx k = 0 := by
  unfold ScatterDims.start
  split
  · rw [h0, BitVec.toInt_zero]
  · rfl

/-- A scatter that keeps the update, whose index words are all zero and which sends the update's two axes to the operand's
    two axes in order writes the update into the top-left corner and leaves the operand everywhere else. -/
theorem scatter_corner (d : ScatterDims (⟨2, ![A, B]⟩ : Shape) si (⟨2, ![a, b]⟩ : Shape))
    (x : (⟨2, ![A, B]⟩ : Shape).Idx → α) (idx : IVec si w) (upd : (⟨2, ![a, b]⟩ : Shape).Idx → α)
    (h0 : ∀ k, idx k = 0#w)
    (hw : ∀ (j : (⟨2, ![a, b]⟩ : Shape).Idx) (k : Fin 2), d.window j k = (j k).val)
    (i : (⟨2, ![A, B]⟩ : Shape).Idx) :
    Host.scatter d (fun _ b => b) x idx upd i
      = if h : (i 0).val < a ∧ (i 1).val < b then upd (ix2 ⟨(i 0).val, h.1⟩ ⟨(i 1).val, h.2⟩) else x i := by
  have hs : ∀ (j : (⟨2, ![a, b]⟩ : Shape).Idx) (k : Fin 2), d.start j idx k = 0 := fun j k => start_zero d idx h0 j k
  -- where an update entry lands: its own coordinates
  have land : ∀ (j : (⟨2, ![a, b]⟩ : Shape).Idx), d.resultIdx? j idx = some i ↔ ((j 0).val = (i 0).val ∧ (j 1).val = (i 1).val) := by
    intro j
    rw [Cert.ScatterSet.resultIdx?_eq_some_iff]
    constructor
    · intro h
      have h0 := h 0
      have h1 := h 1
      rw [hs, hw] at h0 h1
      constructor <;> omega
    · intro h k
      rw [hs, hw]
      match k with
      | ⟨0, _⟩ => have := h.1; show (0 : Int) + ((j 0).val : Int) = ((i 0).val : Int); omega
      | ⟨1, _⟩ => have := h.2; show (0 : Int) + ((j 1).val : Int) = ((i 1).val : Int); omega
  by_cases h : (i 0).val < a ∧ (i 1).val < b
  · rw [dif_pos h]
    refine Cert.ScatterSet.apply_of_hit d x idx upd i (ix2 ⟨(i 0).val, h.1⟩ ⟨(i 1).val, h.2⟩) ((land _).2 ⟨rfl, rfl⟩) ?_
    intro j' hj'
    have e := (land j').1 hj'
    rw [eq_ix2 j']
    congr 1
    · exact Fin.ext e.1
    · exact Fin.ext e.2
  · rw [dif_neg h]
    refine Cert.ScatterSet.apply_of_miss d x idx upd i fun j hj => h ?_
    have e := (land j).1 hj
    have l0 := idx2_lt0 j
    have l1 := idx2_lt1 j
    constructor <;> omega

end Corner

/-! ## The four records: both update axes go to the operand's axes in order -/

theorem window_w1 (j : S100x32.Idx) (k : Fin 2) : scatter_S100x128_S1_S100x32_01_n_1_0.window j k = (j k).val := by
  match k with
  | ⟨0, _⟩ => rfl
  | ⟨1, _⟩ => rfl

theorem window_b1 (j : S1x32.Idx) (k : Fin 2) : scatter_S1x128_S1_S1x32_01_n_1_0.window j k = (j k).val := by
  match k with
  | ⟨0, _⟩ => rfl
  | ⟨1, _⟩ => rfl

theorem window_w2 (j : S32x10.Idx) (k : Fin 2) : scatter_S128x128_S2_S32x10_01_n_01_0.window j k = (j k).val := by
  match k with
  | ⟨0, _⟩ => rfl
  | ⟨1, _⟩ => rfl

theorem window_b2 (j : S1x10.Idx) (k : Fin 2) : scatter_S1x128_S1_S1x10_01_n_1_0.window j k = (j k).val := by
  match k with
  | ⟨0, _⟩ => rfl
  | ⟨1, _⟩ => rfl

/-- The one-word index vector: the constant 0 broadcast. -/
theorem idx1_zero (k : S1.Idx) : (broadcastInDim S1 ![] bcast_S_S1 (constantI S_ 32 0#32) : IVec S1 32) k = 0#32 := rfl

/-- The two-word index vector: two zero words joined. -/
theorem idx2_zero (k : S2.Idx) :
    (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0 : IVec S2 32) k = 0#32 := by
  obtain ⟨k0, rfl⟩ : ∃ k0 : Fin 2, k = ix1 k0 := ⟨k 0, eq_ix1 k⟩
  fin_cases k0 <;> rfl

/-! ## A corner write into zeros is the padding -/

/-- With as many rows as the array, the corner is every row's first columns: zero columns on the right. -/
theorem corner_eq_padCols {a b B : ℕ} (v : (⟨2, ![a, b]⟩ : Shape).Idx → EReal) (x : (⟨2, ![a, B]⟩ : Shape).Idx → EReal)
    (hx : ∀ i, x i = 0) (i : (⟨2, ![a, B]⟩ : Shape).Idx) :
    (if h : (i 0).val < a ∧ (i 1).val < b then v (ix2 ⟨(i 0).val, h.1⟩ ⟨(i 1).val, h.2⟩) else x i) = Cert.Mlp.padCols v i := by
  unfold Cert.Mlp.padCols
  by_cases h : (i 1).val < b
  · rw [dif_pos ⟨idx2_lt0 i, h⟩, dif_pos h]
    rfl
  · rw [dif_neg fun hh => h hh.2, dif_neg h, hx]

/-- The corner of a larger array: zero rows below and zero columns on the right. -/
theorem corner_eq_padBoth {a b A B : ℕ} (v : (⟨2, ![a, b]⟩ : Shape).Idx → EReal) (x : (⟨2, ![A, B]⟩ : Shape).Idx → EReal)
    (hx : ∀ i, x i = 0) (i : (⟨2, ![A, B]⟩ : Shape).Idx) :
    (if h : (i 0).val < a ∧ (i 1).val < b then v (ix2 ⟨(i 0).val, h.1⟩ ⟨(i 1).val, h.2⟩) else x i) = Cert.Mlp.padBoth v i := by
  unfold Cert.Mlp.padBoth
  by_cases h : (i 0).val < a ∧ (i 1).val < b
  · rw [dif_pos h, dif_pos h]
  · rw [dif_neg h, dif_neg h, hx]

/-- The zero array: the float constant 0 broadcast, which is the extended real 0 at every entry. -/
theorem zeros_apply {t : Shape} (h : S_.BroadcastsInDim t (![] : Fin 0 → Fin t.rank)) (i : t.Idx) :
    (broadcastInDim t ![] h (constant (F := Ideal) S_ .f32 0x00000000#32) : t.Idx → EReal) i = 0 :=
  Ideal.ofBits_zero_f32

/-- The first layer's weights, padded to 128 columns. -/
theorem w1p (c : Dev nD) : (V m c main_v14 : S100x128.Idx → EReal) = Cert.Mlp.padCols (m ((c : Thread nD τ).loc main_arg1)) := by
  dsimp only [Gen.V, Gen.hostOps0]
  after_results
  funext i
  -- the change of float format is the identity on the extended reals
  rw [truncf_apply]
  rw [scatter_corner scatter_S100x128_S1_S100x32_01_n_1_0 _ _ _ idx1_zero window_w1 i]
  exact corner_eq_padCols _ _ (zeros_apply bcast_S_S100x128) i

/-- The first layer's bias, padded to 128 columns. -/
theorem b1p (c : Dev nD) : (V m c main_v5 : S1x128.Idx → EReal) = Cert.Mlp.padCols (m ((c : Thread nD τ).loc main_arg2)) := by
  dsimp only [Gen.V, Gen.hostOps0]
  after_results
  funext i
  rw [scatter_corner scatter_S1x128_S1_S1x32_01_n_1_0 _ _ _ idx1_zero window_b1 i]
  exact corner_eq_padCols _ _ (zeros_apply bcast_S_S1x128) i

/-- The second layer's weights, padded to 128 rows and 128 columns. -/
theorem w2p (c : Dev nD) : (V m c main_v15 : S128x128.Idx → EReal) = Cert.Mlp.padBoth (m ((c : Thread nD τ).loc main_arg3)) := by
  dsimp only [Gen.V, Gen.hostOps0]
  after_results
  funext i
  -- the change of float format is the identity on the extended reals
  rw [truncf_apply]
  rw [scatter_corner scatter_S128x128_S2_S32x10_01_n_01_0 _ _ _ idx2_zero window_w2 i]
  exact corner_eq_padBoth _ _ (zeros_apply bcast_S_S128x128) i

/-- The second layer's bias, padded to 128 columns. -/
theorem b2p (c : Dev nD) : (V m c main_v13 : S1x128.Idx → EReal) = Cert.Mlp.padCols (m ((c : Thread nD τ).loc main_arg4)) := by
  dsimp only [Gen.V, Gen.hostOps0]
  after_results
  funext i
  rw [scatter_corner scatter_S1x128_S1_S1x10_01_n_1_0 _ _ _ idx1_zero window_b2 i]
  exact corner_eq_padCols _ _ (zeros_apply bcast_S_S1x128) i

end Cert.KernelIdeal.Pads

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelBody.lean ====
/-
  One grid step of the kernel, entry by entry: from a block of 8192 rows of x and the four padded weight and bias
  blocks it stores  relu(x · W1 + B1) · W2 + B2  on the first ten columns.  The two products are exact sums over
  the contracted axis, the changes of float format are the identity on the extended reals, the bias rows are
  broadcast down the rows, and the stored value is the leading ten columns of the 128-wide result.
-/
import proofs.«132224_g2000401138181295_pallasbulk_285_2_alg».proof.Proof.Gen.KernelIdeal.Skeleton
import proofs.«132224_g2000401138181295_pallasbulk_285_2_alg».proof.Proof.Spec
import proofs.«132224_g2000401138181295_pallasbulk_285_2_alg».proof.Proof.LibPlainDot
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The first product [8192, 100] · [100, 128] contracts axis 1 of the left operand against axis 0 of the right,
    with no batch axis. -/
private theorem plain1 : Cert.PlainDot.Plain dot_S8192x100_S100x128_S8192x128_1_0_0_1_n_n :=
  ⟨rfl, rfl, rfl, rfl, rfl, rfl⟩

/-- So does the second product [8192, 128] · [128, 128]. -/
private theorem plain2 : Cert.PlainDot.Plain dot_S8192x128_S128x128_S8192x128_1_0_0_1_n_n :=
  ⟨rfl, rfl, rfl, rfl, rfl, rfl⟩

/-- Each product contracts exactly one axis … -/
private theorem rank1 : dot_S8192x100_S100x128_S8192x128_1_0_0_1_n_n.contr.rank = 1 := rfl
private theorem rank2 : dot_S8192x128_S128x128_S8192x128_1_0_0_1_n_n.contr.rank = 1 := rfl

/-- … of extent 100 in the first layer and 128 in the second. -/
private theorem size1 : dot_S8192x100_S100x128_S8192x128_1_0_0_1_n_n.contr.size ⟨0, by rw [rank1]; omega⟩ = 100 := rfl
private theorem size2 : dot_S8192x128_S128x128_S8192x128_1_0_0_1_n_n.contr.size ⟨0, by rw [rank2]; omega⟩ = 128 := rfl

/-- A bias row [1, 128] broadcast down 8192 rows: entry (p, k) is the row's entry (0, k). The row axis of the source
    has extent 1, so it reads position 0 there; the column axis has extent 128 and reads the result's column. -/
private theorem bias_apply (b : Vec Ideal S1x128 .f32) (p : Fin 8192) (k : Fin 128) :
    broadcastTo S8192x128 (shapeCast S1x128 b shapeCasts_S1x128_S1x128) broadcasts_S1x128_S8192x128 (ix2 p k)
      = b (ix2 0 k) := by
  rw [shapeCast_self]
  refine broadcastTo_apply b _ (ix2 p k) (ix2 0 k) fun a => ?_
  match a with
  | ⟨0, _⟩ => rfl
  | ⟨1, _⟩ => rfl

/-- The all-zero f32 word denotes the extended real 0: the lower bound of the relu. -/
private theorem relu_zero : (Scalar.ofBits (F := Ideal) .f32 0x00000000#32) = 0 := Ideal.ofBits_zero_f32

/-- The hidden activation at row `p`, lane `k`: the first product is the exact sum over the 100 contracted
    positions, the change of float format on x is the identity on the extended reals, the bias row adds its entry
    (0, k), and the maximum with the zero splat is the relu. -/
private theorem hid_apply (x0 : Vec Ideal S8192x100 .f32) (x1 : Vec Ideal S100x128 .bf16) (x2 : Vec Ideal S1x128 .f32)
    (p : Fin 8192) (k : Fin 128) :
    maximumf
        (addf
          (matmul dot_S8192x100_S100x128_S8192x128_1_0_0_1_n_n none
            (truncf .bf16 x0 bitsLt_bf16_f32 : FVec Ideal S8192x100 .bf16)
            (shapeCast S100x128 x1 shapeCasts_S100x128_S100x128 : FVec Ideal S100x128 .bf16)
            (constant S8192x128 .f32 0x00000000#32))
          (broadcastTo S8192x128 (shapeCast S1x128 x2 shapeCasts_S1x128_S1x128 : FVec Ideal S1x128 .f32)
            broadcasts_S1x128_S8192x128 : FVec Ideal S8192x128 .f32))
        (broadcast S8192x128 (Scalar.ofBits (F := Ideal) .f32 0x00000000#32)) (ix2 p k)
      = Cert.Mlp.hid x0 x1 x2 p k := by
  rw [maximumf_apply, addf_apply, broadcast_apply, relu_zero, bias_apply,
    Cert.PlainDot.matmul_zero_apply plain1 rank1 size1 none _ _ p k, shapeCast_self]
  rfl

/-- The stored block at row `p`, column `q` (below 10). -/
theorem pay_apply (x0 : Vec Ideal S8192x100 .f32) (x1 : Vec Ideal S100x128 .bf16) (x2 : Vec Ideal S1x128 .f32)
    (x3 : Vec Ideal S128x128 .bf16) (x4 : Vec Ideal S1x128 .f32) (p : Fin 8192) (q : Fin 10) :
    k0_pay1 (F := Ideal) x0 x1 x2 x3 x4 (ix2 p q)
      = Cert.Mlp.out x0 x1 x2 x3 p (Fin.castLE (by decide) q) + x4 (ix2 0 (Fin.castLE (by decide) q)) := by
  unfold k0_pay1
  -- The slice has offset (0, 0) and unit strides: its entry (p, q) is entry (p, q) of the 128-wide result.
  refine (extractStridedSlice_apply ![0, 0] _ _ (ix2 p q) (ix2 p (Fin.castLE (show 10 ≤ 128 by decide) q))
    fun a => ?_).trans ?_
  · match a with
    | ⟨0, _⟩ => exact (Nat.zero_add _).symm
    | ⟨1, _⟩ => exact (Nat.zero_add _).symm
  -- That entry is the second product's exact sum over the 128 hidden lanes plus the output bias row's entry (0, q).
  rw [addf_apply, bias_apply, Cert.PlainDot.matmul_zero_apply plain2 rank2 size2 none _ _ p _]
  unfold Cert.Mlp.out
  -- Term by term: the left factor is the hidden activation (its change of float format is the identity), the
  -- right factor is the second layer's weight.
  refine congrArg (· + _) (Finset.sum_congr rfl fun k _ => ?_)
  rw [truncf_apply, hid_apply, shapeCast_self]

end Cert.KernelIdeal.Body

end
-- ==== Proof.KernelWhole.lean ====
/-
  The kernel's output array after the run, as one function of the arrays its region finds.

  The grid has 32 steps; step t reads rows 8192·t … 8192·t + 8191 of x and the whole of each padded weight and bias
  array, and writes back the same rows of the [262144, 10] output.  So the block written at step t is the
  restriction to those rows of one whole-array function, the blocks cover every row (row r belongs to step
  r / 8192), and the array after the run is that function.
-/
import proofs.«132224_g2000401138181295_pallasbulk_285_2_alg».proof.Proof.Gen.KernelIdeal.Value
import proofs.«132224_g2000401138181295_pallasbulk_285_2_alg».proof.Proof.KernelBody

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array as a function of the arrays the region finds. -/
def arr (c : Dev nD) : S262144x10.Idx → EReal := fun i =>
  Cert.Mlp.out (V m c main_arg0) (V m c main_v14) (V m c main_v5) (V m c main_v15) (i 0) (Fin.castLE (by decide) (i 1))
    + (V m c main_v13 : S1x128.Idx → EReal) (ix2 0 (Fin.castLE (by decide) (i 1)))

/-- The zero offset, as the constant function. -/
theorem origin : (![0, 0] : Fin 2 → Nat) = fun _ => 0 := funext fun a => by fin_cases a <;> rfl

/-- The block indices over the 32 steps: step `t` takes row block `t` of x and of the output, and the one block
    (0, 0) of every weight and bias array. -/
theorem step_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- An output entry reads x only in its own row: two arrays that agree on a row give the same entry there. -/
theorem out_of_row {n n' : ℕ} (x : (⟨2, ![n, 100]⟩ : Shape).Idx → EReal) (x' : (⟨2, ![n', 100]⟩ : Shape).Idx → EReal)
    (W1 : (⟨2, ![100, 128]⟩ : Shape).Idx → EReal) (B1 : (⟨2, ![1, 128]⟩ : Shape).Idx → EReal)
    (W2 : (⟨2, ![128, 128]⟩ : Shape).Idx → EReal) (r : Fin n) (r' : Fin n') (q : Fin 128)
    (h : ∀ i : Fin 100, x (ix2 r i) = x' (ix2 r' i)) :
    Cert.Mlp.out x W1 B1 W2 r q = Cert.Mlp.out x' W1 B1 W2 r' q := by
  unfold Cert.Mlp.out Cert.Mlp.hid
  simp only [h]

/-- Entry `y` of step `t`'s block of x is the entry of x in row 8192·t + (row of y), same column. -/
theorem x_block (c : Dev nD) (t : Fin cfg0.N) (y : S8192x100.Idx) (i : S262144x100.Idx)
    (h0 : (i 0).val = 8192 * t.val + (y 0).val) (h1 : (i 1).val = (y 1).val) :
    (iblk m c 0 t : Vec Ideal S8192x100 .f32) y = (V m c main_arg0 : S262144x100.Idx → EReal) i := by
  obtain ⟨e0, e1, -⟩ := step_index t
  unfold iblk
  rw [View.read_apply]
  show V m c main_arg0 _ = V m c main_arg0 _
  congr 1
  funext a
  apply Fin.ext
  match a with
  | ⟨0, _⟩ => show win0_0.index t (0 : Fin 2) * 8192 + 1 * (y 0).val = (i 0).val; rw [e0, h0]; omega
  | ⟨1, _⟩ => show win0_0.index t (1 : Fin 2) * 100 + 1 * (y 1).val = (i 1).val; rw [e1, h1]; omega

/-- The one block of the first layer's weights is the whole array. -/
theorem w1_block (c : Dev nD) (t : Fin cfg0.N) :
    (iblk m c 1 t : Vec Ideal S100x128 .bf16) = (V m c main_v14 : S100x128.Idx → EReal) := by
  obtain ⟨-, -, e0, e1, -⟩ := step_index t
  funext y
  unfold iblk
  rw [View.read_apply]
  show V m c main_v14 _ = V m c main_v14 y
  congr 1
  funext a
  apply Fin.ext
  match a with
  | ⟨0, _⟩ => show win0_1.index t (0 : Fin 2) * 100 + 1 * (y 0).val = (y 0).val; rw [e0]; omega
  | ⟨1, _⟩ => show win0_1.index t (1 : Fin 2) * 128 + 1 * (y 1).val = (y 1).val; rw [e1]; omega

/-- The one block of the first layer's bias is the whole array. -/
theorem b1_block (c : Dev nD) (t : Fin cfg0.N) :
    (iblk m c 2 t : Vec Ideal S1x128 .f32) = (V m c main_v5 : S1x128.Idx → EReal) := by
  obtain ⟨-, -, -, -, e0, e1, -⟩ := step_index t
  funext y
  unfold iblk
  rw [View.read_apply]
  show V m c main_v5 _ = V m c main_v5 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The one block of the second layer's weights is the whole array. -/
theorem w2_block (c : Dev nD) (t : Fin cfg0.N) :
    (iblk m c 3 t : Vec Ideal S128x128 .bf16) = (V m c main_v15 : S128x128.Idx → EReal) := by
  obtain ⟨-, -, -, -, -, -, e0, e1, -⟩ := step_index t
  funext y
  unfold iblk
  rw [View.read_apply]
  show V m c main_v15 _ = V m c main_v15 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The one block of the output bias is the whole array. -/
theorem b2_block (c : Dev nD) (t : Fin cfg0.N) :
    (iblk m c 4 t : Vec Ideal S1x128 .f32) = (V m c main_v13 : S1x128.Idx → EReal) := by
  obtain ⟨-, -, -, -, -, -, -, -, e0, e1, -⟩ := step_index t
  funext y
  unfold iblk
  rw [View.read_apply]
  show V m c main_v13 _ = V m c main_v13 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- One stored entry: from a block of x whose row `y 0` is row `i 0` of the whole x, and the whole weight and bias
    arrays, the entry stored at `y` is the whole-array function at `i` (same column). -/
theorem stored_entry (x0 : Vec Ideal S8192x100 .f32) (X : S262144x100.Idx → EReal) (x1 : Vec Ideal S100x128 .bf16)
    (x2 : Vec Ideal S1x128 .f32) (x3 : Vec Ideal S128x128 .bf16) (x4 : Vec Ideal S1x128 .f32)
    (y : S8192x10.Idx) (i : S262144x10.Idx) (hcol : y 1 = i 1)
    (hx : ∀ k : Fin 100, x0 (ix2 (y 0) k) = X (ix2 (i 0) k)) :
    k0_pay1 (F := Ideal) x0 x1 x2 x3 x4 y
      = Cert.Mlp.out X x1 x2 x3 (i 0) (Fin.castLE (by decide) (i 1)) + x4 (ix2 0 (Fin.castLE (by decide) (i 1))) := by
  refine ((congrArg (k0_pay1 (F := Ideal) x0 x1 x2 x3 x4) (eq_ix2 (n0 := 8192) (n1 := 10) y)).trans
    (Cert.KernelIdeal.Body.pay_apply x0 x1 x2 x3 x4 (y 0) (y 1))).trans ?_
  rw [out_of_row x0 X x1 x2 x3 (y 0) (i 0) _ hx, hcol]
  rfl

/-- What step `t` writes back is its block of the whole-array function. -/
theorem flushed_eq (c : Dev nD) (t : Fin cfg0.N) :
    (dats m 0 c).flushed 5 t = ((cfg0.win 5).blk t).view.read (Elt Ideal) (arr m c) := by
  rw [Cert.KernelIdeal.Value.flushed5]
  unfold Gen.out0_5
  rw [View.canon_unit_zero origin]
  simp only [View.ld_unit_zero (S := S8192x100) origin, View.ld_unit_zero (S := S100x128) origin,
    View.ld_unit_zero (S := S1x128) origin, View.ld_unit_zero (S := S128x128) origin]
  rw [w1_block, b1_block, w2_block, b2_block]
  obtain ⟨-, -, -, -, -, -, -, -, -, -, e0, e1⟩ := step_index t
  funext y
  show k0_pay1 (F := Ideal) (iblk m c 0 t) (V m c main_v14) (V m c main_v5) (V m c main_v15) (V m c main_v13) y
      = arr m c (((cfg0.win 5).blk t).view.emb y)
  refine stored_entry (iblk m c 0 t) (V m c main_arg0) _ _ _ _ y _ ?_ ?_
  · apply Fin.ext
    show (y 1).val = win0_5.index t (1 : Fin 2) * 10 + 1 * (y 1).val
    rw [e1]; omega
  · intro k
    refine x_block m c t _ _ ?_ ?_
    · show win0_5.index t (0 : Fin 2) * 8192 + 1 * (y 0).val = 8192 * t.val + (y 0).val
      rw [e0]; omega
    · rfl

/-- An index of the output array is in step `t`'s block iff each coordinate is in the block's range on its axis. -/
theorem mem_step (t : Fin cfg0.N) (i : S262144x10.Idx) :
    i ∈ ((cfg0.win 5).blk t).view.set ↔ ∀ a : Fin 2, win0_5.index t a * S8192x10.size a ≤ (i a).val
      ∧ (i a).val < win0_5.index t a * S8192x10.size a + S8192x10.size a := by
  show i ∈ ((View.whole main_v16).slice (win0_5.rect t)).set ↔ _
  rw [View.set_slice_whole, Rect.mem_set_unit]
  exact Iff.rfl

/-- Every entry of the output array is written: row `r` by step `r / 8192`, whose one column block holds all ten
    columns. -/
theorem cover (i : S262144x10.Idx) :
    ∃ t : Fin cfg0.N, (cfg0.win 5).flush t = true ∧ i ∈ ((cfg0.win 5).blk t).view.set := by
  have hi0 : (i 0).val < 262144 := (i 0).isLt
  have hi1 : (i 1).val < 10 := (i 1).isLt
  have hN : cfg0.N = 32 := N_0
  obtain ⟨t, ht⟩ : ∃ t : Fin cfg0.N, t.val = (i 0).val / 8192 := ⟨⟨(i 0).val / 8192, by rw [hN]; omega⟩, rfl⟩
  obtain ⟨-, -, -, -, -, -, -, -, -, -, e0, e1⟩ := step_index t
  refine ⟨t, flush0_5 t, ?_⟩
  rw [mem_step]
  intro a
  match a with
  | ⟨0, _⟩ =>
    show win0_5.index t (0 : Fin 2) * 8192 ≤ (i 0).val ∧ (i 0).val < win0_5.index t (0 : Fin 2) * 8192 + 8192
    rw [e0, ht]; omega
  | ⟨1, _⟩ =>
    show win0_5.index t (1 : Fin 2) * 10 ≤ (i 1).val ∧ (i 1).val < win0_5.index t (1 : Fin 2) * 10 + 10
    rw [e1]; omega

/-- The array after the last grid step. -/
theorem final (c : Dev nD) : (dats m 0 c).arrAt 5 cfg0.N = arr m c :=
  (dats m 0 c).arrAt_eq_of_cover 5 (arr m c) (fun t _ => flushed_eq m c t) cover

/-- The run: the result array at `arr`, the arguments unchanged. -/
theorem run : θ_run defs (onTc (τ := τ) (main (F := Ideal))) ⟨m, fun _ => 0, ρ⟩ fun r => ∀ c : Dev nD,
      r.2.mem ((c : Thread nD τ).loc main_v16) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefPads.lean ====
/-
  The padded weights and biases as the reference's region finds them: zero arrays with the arguments written into
  their top-left corners (scatters at start 0 whose body keeps the update), then the constant one written at lane 32
  of the first-layer bias and the output bias written into row 32 of the second layer.
-/
import proofs.«132224_g2000401138181295_pallasbulk_285_2_alg».proof.Proof.Gen.ReferenceIdeal.Frame
import proofs.«132224_g2000401138181295_pallasbulk_285_2_alg».proof.Proof.Spec
import proofs.«132224_g2000401138181295_pallasbulk_285_2_alg».proof.Proof.LibScatterSet
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.IdealHost

noncomputable section

namespace Cert.ReferenceIdeal.Pads

open Cert.ReferenceIdeal Cert.ReferenceIdeal.Gen Idealize.ShloMosaic Idealize.ShloMosaic.TcCoe Idealize.ShloMosaic.ValueIdx Idealize.SL.Sem

variable (m : (ℓ : Loc nD τ sig) → Buf (Elt Ideal) ℓ)

/-! ## Where each scatter's update entries land

Every scatter here keeps the update, reads a constant start off its index vector, and writes a window that lies
inside the operand; so an update entry lands at its window coordinate shifted by the start, each element is hit by
at most one entry, and the result is the update inside the window and the operand outside it. -/

section Landing

variable {α : Type}

/-- The index vector of a one-component scatter has one entry. -/
private theorem idx1_eq (idx : IVec S1 32) (k : S1.Idx) : idx k = idx (ix1 0) := by
  congr 1; funext b; match b with | ⟨0, _⟩ => exact Subsingleton.elim (α := Fin 1) _ _

/-! ### [100, 32] written into [100, 128] at column offset 0 -/

/-- An entry of the [100, 32] update lands at its own coordinates. -/
theorem lands_w1 (idx : IVec S1 32) (hidx : idx (ix1 0) = 0#32) (j : S100x32.Idx) (i : S100x128.Idx) :
    scatter_S100x128_S1_S100x32_01_n_1_0.resultIdx? j idx = some i ↔ (j 0).val = (i 0).val ∧ (j 1).val = (i 1).val := by
  rw [Cert.ScatterSet.resultIdx?_eq_some_iff]
  have hall : ∀ k, idx k = 0#32 := fun k => by rw [idx1_eq idx k, hidx]
  have s0 : scatter_S100x128_S1_S100x32_01_n_1_0.start j idx (0 : Fin 2) = 0 := rfl
  have s1 : scatter_S100x128_S1_S100x32_01_n_1_0.start j idx (1 : Fin 2) = 0 := by
    simp [ScatterDims.start, scatter_S100x128_S1_S100x32_01_n_1_0, hall]
  have w0 : scatter_S100x128_S1_S100x32_01_n_1_0.window j (0 : Fin 2) = (j 0).val := rfl
  have w1 : scatter_S100x128_S1_S100x32_01_n_1_0.window j (1 : Fin 2) = (j 1).val := rfl
  constructor
  · intro h
    have h0 := h 0
    have h1 := h 1
    rw [s0, w0] at h0
    rw [s1, w1] at h1
    omega
  · rintro ⟨h0, h1⟩
    refine Fin.forall_fin_two.mpr ⟨?_, ?_⟩
    · rw [s0, w0]; omega
    · rw [s1, w1]; omega

/-- The result is the update on the first 32 columns and the operand elsewhere. -/
theorem scatter_w1 (x : S100x128.Idx → α) (idx : IVec S1 32) (hidx : idx (ix1 0) = 0#32) (upd : S100x32.Idx → α)
    (i : S100x128.Idx) :
    Host.scatter scatter_S100x128_S1_S100x32_01_n_1_0 (fun _ b => b) x idx upd i
      = if h : (i 1).val < 32 then upd (ix2 (i 0) ⟨(i 1).val, h⟩) else x i := by
  by_cases h : (i 1).val < 32
  · rw [dif_pos h]
    refine Cert.ScatterSet.apply_of_hit _ x idx upd i _ ((lands_w1 idx hidx _ i).mpr ⟨rfl, rfl⟩) fun j' hj' => ?_
    have e := (lands_w1 idx hidx j' i).mp hj'
    rw [eq_ix2 j']
    congr 1
    · exact Fin.ext e.1
    · exact Fin.ext e.2
  · rw [dif_neg h]
    refine Cert.ScatterSet.apply_of_miss _ x idx upd i fun j hj => ?_
    have e := (lands_w1 idx hidx j i).mp hj
    have := idx2_lt1 j
    omega

/-! ### [1, 32] written into [1, 128] at column offset 0 -/

/-- An entry of the [1, 32] update lands at its own coordinates. -/
theorem lands_b1 (idx : IVec S1 32) (hidx : idx (ix1 0) = 0#32) (j : S1x32.Idx) (i : S1x128.Idx) :
    scatter_S1x128_S1_S1x32_01_n_1_0.resultIdx? j idx = some i ↔ (j 0).val = (i 0).val ∧ (j 1).val = (i 1).val := by
  rw [Cert.ScatterSet.resultIdx?_eq_some_iff]
  have hall : ∀ k, idx k = 0#32 := fun k => by rw [idx1_eq idx k, hidx]
  have s0 : scatter_S1x128_S1_S1x32_01_n_1_0.start j idx (0 : Fin 2) = 0 := rfl
  have s1 : scatter_S1x128_S1_S1x32_01_n_1_0.start j idx (1 : Fin 2) = 0 := by
    simp [ScatterDims.start, scatter_S1x128_S1_S1x32_01_n_1_0, hall]
  have w0 : scatter_S1x128_S1_S1x32_01_n_1_0.window j (0 : Fin 2) = (j 0).val := rfl
  have w1 : scatter_S1x128_S1_S1x32_01_n_1_0.window j (1 : Fin 2) = (j 1).val := rfl
  constructor
  · intro h
    have h0 := h 0
    have h1 := h 1
    rw [s0, w0] at h0
    rw [s1, w1] at h1
    omega
  · rintro ⟨h0, h1⟩
    refine Fin.forall_fin_two.mpr ⟨?_, ?_⟩
    · rw [s0, w0]; omega
    · rw [s1, w1]; omega

/-- The result is the update on the first 32 columns and the operand elsewhere. -/
theorem scatter_b1 (x : S1x128.Idx → α) (idx : IVec S1 32) (hidx : idx (ix1 0) = 0#32) (upd : S1x32.Idx → α)
    (i : S1x128.Idx) :
    Host.scatter scatter_S1x128_S1_S1x32_01_n_1_0 (fun _ b => b) x idx upd i
      = if h : (i 1).val < 32 then upd (ix2 (i 0) ⟨(i 1).val, h⟩) else x i := by
  by_cases h : (i 1).val < 32
  · rw [dif_pos h]
    refine Cert.ScatterSet.apply_of_hit _ x idx upd i _ ((lands_b1 idx hidx _ i).mpr ⟨rfl, rfl⟩) fun j' hj' => ?_
    have e := (lands_b1 idx hidx j' i).mp hj'
    rw [eq_ix2 j']
    congr 1
    · exact Fin.ext e.1
    · exact Fin.ext e.2
  · rw [dif_neg h]
    refine Cert.ScatterSet.apply_of_miss _ x idx upd i fun j hj => ?_
    have e := (lands_b1 idx hidx j i).mp hj
    have := idx2_lt1 j
    omega

/-! ### One element written into [1, 128] at (0, 32) -/

/-- The scalar update lands at the position the two index words name. -/
theorem lands_one (idx : IVec S2 32) (h0 : idx (ix1 0) = 0#32) (h1 : idx (ix1 1) = 32#32) (j : S_.Idx) (i : S1x128.Idx) :
    scatter_S1x128_S2_S__n_01_01_0.resultIdx? j idx = some i ↔ (i 0).val = 0 ∧ (i 1).val = 32 := by
  rw [Cert.ScatterSet.resultIdx?_eq_some_iff]
  have k0 : scatter_S1x128_S2_S__n_01_01_0.siIdx j ⟨0, by decide⟩ = ix1 0 := by
    funext b; match b with | ⟨0, _⟩ => rfl
  have k1 : scatter_S1x128_S2_S__n_01_01_0.siIdx j ⟨1, by decide⟩ = ix1 1 := by
    funext b; match b with | ⟨0, _⟩ => rfl
  have s0 : scatter_S1x128_S2_S__n_01_01_0.start j idx (0 : Fin 2) = 0 := by
    show (idx (scatter_S1x128_S2_S__n_01_01_0.siIdx j ⟨0, by decide⟩)).toInt = 0
    rw [k0, h0]; rfl
  have s1 : scatter_S1x128_S2_S__n_01_01_0.start j idx (1 : Fin 2) = 32 := by
    show (idx (scatter_S1x128_S2_S__n_01_01_0.siIdx j ⟨1, by decide⟩)).toInt = 32
    rw [k1, h1]; rfl
  have w0 : scatter_S1x128_S2_S__n_01_01_0.window j (0 : Fin 2) = 0 := rfl
  have w1 : scatter_S1x128_S2_S__n_01_01_0.window j (1 : Fin 2) = 0 := rfl
  constructor
  · intro h
    have e0 := h 0
    have e1 := h 1
    rw [s0, w0] at e0
    rw [s1, w1] at e1
    omega
  · rintro ⟨e0, e1⟩
    refine Fin.forall_fin_two.mpr ⟨?_, ?_⟩
    · rw [s0, w0]; omega
    · rw [s1, w1]; omega

/-- The result is the update at lane 32 and the operand elsewhere. -/
theorem scatter_one (x : S1x128.Idx → α) (idx : IVec S2 32) (h0 : idx (ix1 0) = 0#32) (h1 : idx (ix1 1) = 32#32)
    (upd : S_.Idx → α) (i : S1x128.Idx) :
    Host.scatter scatter_S1x128_S2_S__n_01_01_0 (fun _ b => b) x idx upd i
      = if (i 1).val = 32 then upd ix0 else x i := by
  have hi0 : (i 0).val = 0 := by have := idx2_lt0 i; omega
  by_cases h : (i 1).val = 32
  · rw [if_pos h]
    exact Cert.ScatterSet.apply_of_hit _ x idx upd i ix0 ((lands_one idx h0 h1 _ i).mpr ⟨hi0, h⟩)
      fun j' _ => eq_ix0 j'
  · rw [if_neg h]
    exact Cert.ScatterSet.apply_of_miss _ x idx upd i fun j hj => h ((lands_one idx h0 h1 j i).mp hj).2

/-! ### [32, 10] written into [128, 128] at (0, 0) -/

/-- An entry of the [32, 10] update lands at its own coordinates. -/
theorem lands_w2 (idx : IVec S2 32) (h0 : idx (ix1 0) = 0#32) (h1 : idx (ix1 1) = 0#32) (j : S32x10.Idx) (i : S128x128.Idx) :
    scatter_S128x128_S2_S32x10_01_n_01_0.resultIdx? j idx = some i ↔ (j 0).val = (i 0).val ∧ (j 1).val = (i 1).val := by
  rw [Cert.ScatterSet.resultIdx?_eq_some_iff]
  have k0 : scatter_S128x128_S2_S32x10_01_n_01_0.siIdx j ⟨0, by decide⟩ = ix1 0 := by
    funext b; match b with | ⟨0, _⟩ => rfl
  have k1 : scatter_S128x128_S2_S32x10_01_n_01_0.siIdx j ⟨1, by decide⟩ = ix1 1 := by
    funext b; match b with | ⟨0, _⟩ => rfl
  have s0 : scatter_S128x128_S2_S32x10_01_n_01_0.start j idx (0 : Fin 2) = 0 := by
    show (idx (scatter_S128x128_S2_S32x10_01_n_01_0.siIdx j ⟨0, by decide⟩)).toInt = 0
    rw [k0, h0]; rfl
  have s1 : scatter_S128x128_S2_S32x10_01_n_01_0.start j idx (1 : Fin 2) = 0 := by
    show (idx (scatter_S128x128_S2_S32x10_01_n_01_0.siIdx j ⟨1, by decide⟩)).toInt = 0
    rw [k1, h1]; rfl
  have w0 : scatter_S128x128_S2_S32x10_01_n_01_0.window j (0 : Fin 2) = (j 0).val := rfl
  have w1 : scatter_S128x128_S2_S32x10_01_n_01_0.window j (1 : Fin 2) = (j 1).val := rfl
  constructor
  · intro h
    have e0 := h 0
    have e1 := h 1
    rw [s0, w0] at e0
    rw [s1, w1] at e1
    omega
  · rintro ⟨e0, e1⟩
    refine Fin.forall_fin_two.mpr ⟨?_, ?_⟩
    · rw [s0, w0]; omega
    · rw [s1, w1]; omega

/-- The result is the update on the top-left [32, 10] corner and the operand elsewhere. -/
theorem scatter_w2 (x : S128x128.Idx → α) (idx : IVec S2 32) (h0 : idx (ix1 0) = 0#32) (h1 : idx (ix1 1) = 0#32)
    (upd : S32x10.Idx → α) (i : S128x128.Idx) :
    Host.scatter scatter_S128x128_S2_S32x10_01_n_01_0 (fun _ b => b) x idx upd i
      = if h : (i 0).val < 32 ∧ (i 1).val < 10 then upd (ix2 ⟨(i 0).val, h.1⟩ ⟨(i 1).val, h.2⟩) else x i := by
  by_cases h : (i 0).val < 32 ∧ (i 1).val < 10
  · rw [dif_pos h]
    refine Cert.ScatterSet.apply_of_hit _ x idx upd i _ ((lands_w2 idx h0 h1 _ i).mpr ⟨rfl, rfl⟩) fun j' hj' => ?_
    have e := (lands_w2 idx h0 h1 j' i).mp hj'
    rw [eq_ix2 j']
    congr 1
    · exact Fin.ext e.1
    · exact Fin.ext e.2
  · rw [dif_neg h]
    refine Cert.ScatterSet.apply_of_miss _ x idx upd i fun j hj => ?_
    have e := (lands_w2 idx h0 h1 j i).mp hj
    have := idx2_lt0 j
    have := idx2_lt1 j
    omega

/-! ### A row of ten written into [128, 128] at row 32 -/

/-- Entry `q` of the row lands at (32, q). -/
theorem lands_b2 (idx : IVec S2 32) (h0 : idx (ix1 0) = 32#32) (h1 : idx (ix1 1) = 0#32) (j : S10.Idx) (i : S128x128.Idx) :
    scatter_S128x128_S2_S10_0_0_01_0.resultIdx? j idx = some i ↔ (i 0).val = 32 ∧ (j 0).val = (i 1).val := by
  rw [Cert.ScatterSet.resultIdx?_eq_some_iff]
  have k0 : scatter_S128x128_S2_S10_0_0_01_0.siIdx j ⟨0, by decide⟩ = ix1 0 := by
    funext b; match b with | ⟨0, _⟩ => rfl
  have k1 : scatter_S128x128_S2_S10_0_0_01_0.siIdx j ⟨1, by decide⟩ = ix1 1 := by
    funext b; match b with | ⟨0, _⟩ => rfl
  have s0 : scatter_S128x128_S2_S10_0_0_01_0.start j idx (0 : Fin 2) = 32 := by
    show (idx (scatter_S128x128_S2_S10_0_0_01_0.siIdx j ⟨0, by decide⟩)).toInt = 32
    rw [k0, h0]; rfl
  have s1 : scatter_S128x128_S2_S10_0_0_01_0.start j idx (1 : Fin 2) = 0 := by
    show (idx (scatter_S128x128_S2_S10_0_0_01_0.siIdx j ⟨1, by decide⟩)).toInt = 0
    rw [k1, h1]; rfl
  have w0 : scatter_S128x128_S2_S10_0_0_01_0.window j (0 : Fin 2) = 0 := rfl
  have w1 : scatter_S128x128_S2_S10_0_0_01_0.window j (1 : Fin 2) = (j 0).val := rfl
  constructor
  · intro h
    have e0 := h 0
    have e1 := h 1
    rw [s0, w0] at e0
    rw [s1, w1] at e1
    omega
  · rintro ⟨e0, e1⟩
    refine Fin.forall_fin_two.mpr ⟨?_, ?_⟩
    · rw [s0, w0]; omega
    · rw [s1, w1]; omega

/-- The result is the row on columns 0 … 9 of row 32 and the operand elsewhere. -/
theorem scatter_b2 (x : S128x128.Idx → α) (idx : IVec S2 32) (h0 : idx (ix1 0) = 32#32) (h1 : idx (ix1 1) = 0#32)
    (upd : S10.Idx → α) (i : S128x128.Idx) :
    Host.scatter scatter_S128x128_S2_S10_0_0_01_0 (fun _ b => b) x idx upd i
      = if h : (i 0).val = 32 ∧ (i 1).val < 10 then upd (ix1 ⟨(i 1).val, h.2⟩) else x i := by
  by_cases h : (i 0).val = 32 ∧ (i 1).val < 10
  · rw [dif_pos h]
    refine Cert.ScatterSet.apply_of_hit _ x idx upd i _ ((lands_b2 idx h0 h1 _ i).mpr ⟨h.1, rfl⟩) fun j' hj' => ?_
    have e := (lands_b2 idx h0 h1 j' i).mp hj'
    rw [eq_ix1 j']
    congr 1
    exact Fin.ext e.2
  · rw [dif_neg h]
    refine Cert.ScatterSet.apply_of_miss _ x idx upd i fun j hj => ?_
    have e := (lands_b2 idx h0 h1 j i).mp hj
    have : (j 0).val < 10 := (j 0).isLt
    omega

end Landing

/-! ## The index vectors and the constants, read -/

/-- The one-component index vector is the word 0. -/
private theorem idxv_0 : (broadcastInDim S1 ![] bcast_S_S1 (constantI S_ 32 0#32) : IVec S1 32) (ix1 0) = 0#32 := rfl

/-- The index vector [0, 32] at its two positions. -/
private theorem idxv_0_32_fst : (concatenate S2 0 [⟨S1, broadcastInDim S1 ![] bcast_S_S1 (constantI S_ 32 0#32)⟩,
    ⟨S1, broadcastInDim S1 ![] bcast_S_S1 (constantI S_ 32 32#32)⟩] concatenates_S1_S1_S2_d0 : IVec S2 32) (ix1 0) = 0#32 := rfl
private theorem idxv_0_32_snd : (concatenate S2 0 [⟨S1, broadcastInDim S1 ![] bcast_S_S1 (constantI S_ 32 0#32)⟩,
    ⟨S1, broadcastInDim S1 ![] bcast_S_S1 (constantI S_ 32 32#32)⟩] concatenates_S1_S1_S2_d0 : IVec S2 32) (ix1 1) = 32#32 := rfl

/-- The index vector [0, 0] at its two positions. -/
private theorem idxv_0_0_fst : (concatenate S2 0 [⟨S1, broadcastInDim S1 ![] bcast_S_S1 (constantI S_ 32 0#32)⟩,
    ⟨S1, broadcastInDim S1 ![] bcast_S_S1 (constantI S_ 32 0#32)⟩] concatenates_S1_S1_S2_d0 : IVec S2 32) (ix1 0) = 0#32 := rfl
private theorem idxv_0_0_snd : (concatenate S2 0 [⟨S1, broadcastInDim S1 ![] bcast_S_S1 (constantI S_ 32 0#32)⟩,
    ⟨S1, broadcastInDim S1 ![] bcast_S_S1 (constantI S_ 32 0#32)⟩] concatenates_S1_S1_S2_d0 : IVec S2 32) (ix1 1) = 0#32 := rfl

/-- The index vector [32, 0] at its two positions. -/
private theorem idxv_32_0_fst : (concatenate S2 0 [⟨S1, broadcastInDim S1 ![] bcast_S_S1 (constantI S_ 32 32#32)⟩,
    ⟨S1, broadcastInDim S1 ![] bcast_S_S1 (constantI S_ 32 0#32)⟩] concatenates_S1_S1_S2_d0 : IVec S2 32) (ix1 0) = 32#32 := rfl
private theorem idxv_32_0_snd : (concatenate S2 0 [⟨S1, broadcastInDim S1 ![] bcast_S_S1 (constantI S_ 32 32#32)⟩,
    ⟨S1, broadcastInDim S1 ![] bcast_S_S1 (constantI S_ 32 0#32)⟩] concatenates_S1_S1_S2_d0 : IVec S2 32) (ix1 1) = 0#32 := rfl

/-- The first layer's weights, padded to 128 columns. -/
theorem w1p (c : Dev nD) : (V m c main_v2 : S100x128.Idx → EReal) = Cert.Mlp.padCols (m ((c : Thread nD τ).loc main_arg1)) := by
  show StableHlo.after hostOps0 (fun b => m (c, b)) (Proc.devRef .tc main_v2) = _
  after_results
  funext i
  rw [scatter_w1 _ _ idxv_0]
  unfold Cert.Mlp.padCols
  by_cases h : (i 1).val < 32
  · rw [dif_pos h, dif_pos h]
  · rw [dif_neg h, dif_neg h]; exact Ideal.ofBits_zero_f32

/-- The first layer's bias, padded to 128 columns, with one at lane 32. -/
theorem b1one (c : Dev nD) : (V m c main_v9 : S1x128.Idx → EReal) = Cert.Mlp.biasOne (m ((c : Thread nD τ).loc main_arg2)) := by
  show StableHlo.after hostOps0 (fun b => m (c, b)) (Proc.devRef .tc main_v9) = _
  after_results
  funext i
  rw [scatter_one _ _ idxv_0_32_fst idxv_0_32_snd, scatter_b1 _ _ idxv_0]
  unfold Cert.Mlp.biasOne Cert.Mlp.padCols
  by_cases h32 : (i 1).val = 32
  · rw [if_pos h32, if_pos h32]; exact Ideal.ofBits_one_f32
  · rw [if_neg h32, if_neg h32]
    by_cases h : (i 1).val < 32
    · rw [dif_pos h, dif_pos h]
    · rw [dif_neg h, dif_neg h]; exact Ideal.ofBits_zero_f32

/-- The second layer's weights, padded, with the output bias in row 32. -/
theorem w2fold (c : Dev nD) : (V m c main_v19 : S128x128.Idx → EReal)
    = Cert.Mlp.foldedW2 (m ((c : Thread nD τ).loc main_arg3)) (m ((c : Thread nD τ).loc main_arg4)) := by
  show StableHlo.after hostOps0 (fun b => m (c, b)) (Proc.devRef .tc main_v19) = _
  after_results
  funext i
  rw [scatter_b2 _ _ idxv_32_0_fst idxv_32_0_snd, scatter_w2 _ _ idxv_0_0_fst idxv_0_0_snd]
  unfold Cert.Mlp.foldedW2 Cert.Mlp.padBoth
  by_cases hr : (i 0).val = 32 ∧ (i 1).val < 10
  · rw [dif_pos hr, dif_pos hr]
    show shapeCast S10 (m (c, Proc.devRef .tc main_arg4)) shapeCasts_S1x10_S10 (ix1 ⟨(i 1).val, hr.2⟩) = _
    refine shapeCast_apply _ _ _ (ix2 0 ⟨(i 1).val, hr.2⟩) ?_
    rw [Shape.rowMajor_val_two, Shape.rowMajor_val_one]
    simp
  · rw [dif_neg hr, dif_neg hr]
    by_cases h : (i 0).val < 32 ∧ (i 1).val < 10
    · rw [dif_pos h, dif_pos h]
    · rw [dif_neg h, dif_neg h]; exact Ideal.ofBits_zero_f32

end Cert.ReferenceIdeal.Pads

end
-- ==== Proof.RefBody.lean ====
/-
  One grid step of the reference, entry by entry: from a block of 4096 rows of x and the three padded weight and
  bias blocks it stores  relu(x · W1 + B1) · W2  on all 128 columns.  The two products are exact sums over the
  contracted axis and the bias row is broadcast down the rows.
-/
import proofs.«132224_g2000401138181295_pallasbulk_285_2_alg».proof.Proof.Gen.ReferenceIdeal.Skeleton
import proofs.«132224_g2000401138181295_pallasbulk_285_2_alg».proof.Proof.Spec
import proofs.«132224_g2000401138181295_pallasbulk_285_2_alg».proof.Proof.LibPlainDot
import Idealize.ShloMosaic.Lib.ValueIdx
import Idealize.ShloMosaic.Lib.Pipeline.Value
import Idealize.ShloMosaic.PureOps.Ideal.Laws

noncomputable section

namespace Cert.ReferenceIdeal.Body

open Cert.ReferenceIdeal Cert.ReferenceIdeal.Gen Idealize.ShloMosaic Idealize.ShloMosaic.ValueIdx

/-- The first product [4096, 100] · [100, 128] contracts axis 1 of the left operand against axis 0 of the right,
    with no batch axis. -/
private theorem plain1 : Cert.PlainDot.Plain dot_S4096x100_S100x128_S4096x128_1_0_0_1_n_n :=
  ⟨rfl, rfl, rfl, rfl, rfl, rfl⟩

/-- So does the second product [4096, 128] · [128, 128]. -/
private theorem plain2 : Cert.PlainDot.Plain dot_S4096x128_S128x128_S4096x128_1_0_0_1_n_n :=
  ⟨rfl, rfl, rfl, rfl, rfl, rfl⟩

/-- Each product contracts exactly one axis … -/
private theorem rank1 : dot_S4096x100_S100x128_S4096x128_1_0_0_1_n_n.contr.rank = 1 := rfl
private theorem rank2 : dot_S4096x128_S128x128_S4096x128_1_0_0_1_n_n.contr.rank = 1 := rfl

/-- … of extent 100 in the first layer and 128 in the second. -/
private theorem size1 : dot_S4096x100_S100x128_S4096x128_1_0_0_1_n_n.contr.size ⟨0, by rw [rank1]; omega⟩ = 100 := rfl
private theorem size2 : dot_S4096x128_S128x128_S4096x128_1_0_0_1_n_n.contr.size ⟨0, by rw [rank2]; omega⟩ = 128 := rfl

/-- The bias row [1, 128] broadcast down 4096 rows: entry (p, k) is the row's entry (0, k). The row axis of the source
    has extent 1, so it reads position 0 there; the column axis has extent 128 and reads the result's column. -/
private theorem bias_apply (b : Vec Ideal S1x128 .f32) (p : Fin 4096) (k : Fin 128) :
    broadcastTo S4096x128 (shapeCast S1x128 b shapeCasts_S1x128_S1x128) broadcasts_S1x128_S4096x128 (ix2 p k)
      = b (ix2 0 k) := by
  rw [shapeCast_self]
  refine broadcastTo_apply b _ (ix2 p k) (ix2 0 k) fun a => ?_
  match a with
  | ⟨0, _⟩ => rfl
  | ⟨1, _⟩ => rfl

/-- The all-zero f32 word denotes the extended real 0: the lower bound of the relu. -/
private theorem relu_zero : (Scalar.ofBits (F := Ideal) .f32 0x00000000#32) = 0 := Ideal.ofBits_zero_f32

/-- The hidden activation at row `p`, lane `k`: the first product is the exact sum over the 100 contracted
    positions, the bias row adds its entry (0, k), and the maximum with the zero splat is the relu. -/
private theorem hid_apply (x0 : Vec Ideal S4096x100 .f32) (x1 : Vec Ideal S100x128 .f32) (x2 : Vec Ideal S1x128 .f32)
    (p : Fin 4096) (k : Fin 128) :
    maximumf
        (addf
          (matmul (φ₁ := .f32) dot_S4096x100_S100x128_S4096x128_1_0_0_1_n_n none x0
            (shapeCast S100x128 x1 shapeCasts_S100x128_S100x128 : FVec Ideal S100x128 .f32)
            (constant S4096x128 .f32 0x00000000#32))
          (broadcastTo S4096x128 (shapeCast S1x128 x2 shapeCasts_S1x128_S1x128 : FVec Ideal S1x128 .f32)
            broadcasts_S1x128_S4096x128 : FVec Ideal S4096x128 .f32))
        (broadcast S4096x128 (Scalar.ofBits (F := Ideal) .f32 0x00000000#32)) (ix2 p k)
      = Cert.Mlp.hid x0 x1 x2 p k := by
  rw [maximumf_apply, addf_apply, broadcast_apply, relu_zero, bias_apply,
    Cert.PlainDot.matmul_zero_apply plain1 rank1 size1 none _ _ p k, shapeCast_self]
  rfl

/-- The stored block at row `p`, column `q`. -/
theorem pay_apply (x0 : Vec Ideal S4096x100 .f32) (x1 : Vec Ideal S100x128 .f32) (x2 : Vec Ideal S1x128 .f32)
    (x3 : Vec Ideal S128x128 .f32) (p : Fin 4096) (q : Fin 128) :
    k0_pay1 (F := Ideal) x0 x1 x2 x3 (ix2 p q) = Cert.Mlp.out x0 x1 x2 x3 p q := by
  unfold k0_pay1
  -- The stored value is the second product: its entry (p, q) is the exact sum over the 128 hidden lanes.
  rw [Cert.PlainDot.matmul_zero_apply plain2 rank2 size2 none _ _ p q]
  unfold Cert.Mlp.out
  -- Term by term: the left factor is the hidden activation, the right factor is the second layer's weight.
  refine Finset.sum_congr rfl fun k _ => ?_
  rw [hid_apply, shapeCast_self]

end Cert.ReferenceIdeal.Body

end
-- ==== Proof.RefWhole.lean ====
/-
  The reference's result after the run, as one function of the arrays its region finds.

  The grid has 64 steps; step t reads rows 4096·t … 4096·t + 4095 of x and the whole of each padded weight and bias
  array, and writes back the same rows of a [262144, 128] slab.  So the block written at step t is the restriction
  to those rows of one whole-array function, the blocks cover every row (row r belongs to step r / 4096), and the
  slab after the region is that function.  The host then keeps the slab's first ten columns.
-/
import proofs.«132224_g2000401138181295_pallasbulk_285_2_alg».proof.Proof.Gen.ReferenceIdeal.Frame
import proofs.«132224_g2000401138181295_pallasbulk_285_2_alg».proof.Proof.RefBody
import Idealize.ShloMosaic.Lib.Pipeline.Value
import Idealize.ShloMosaic.Lib.StableHlo.Run

noncomputable section

namespace Cert.ReferenceIdeal.Whole

open Cert.ReferenceIdeal Cert.ReferenceIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The slab the region leaves, as a function of the arrays the region finds. -/
def slab (c : Dev nD) : S262144x128.Idx → EReal := fun i =>
  Cert.Mlp.out (V m c main_arg0) (V m c main_v2) (V m c main_v9) (V m c main_v19) (i 0) (i 1)

theorem zeros : (![0, 0] : Fin 2 → Nat) = fun _ => 0 := funext fun a => by fin_cases a <;> rfl

/-- Where each window's block sits at step t: x and the slab at block row t, the weights and bias at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The network's entry (r, q) reads x in row r only: a block of rows that agrees with x on row r gives the same entry. -/
theorem entry_of_rows (x0 : Vec Ideal S4096x100 .f32) (x1 : Vec Ideal S100x128 .f32) (x2 : Vec Ideal S1x128 .f32)
    (x3 : Vec Ideal S128x128 .f32) (X : S262144x100.Idx → EReal) (p : Fin 4096) (q : Fin 128) (r : Fin 262144)
    (hx : ∀ k : Fin 100, x0 (ix2 p k) = X (ix2 r k)) :
    k0_pay1 (F := Ideal) x0 x1 x2 x3 (ix2 p q) = Cert.Mlp.out X x1 x2 x3 r q := by
  rw [Body.pay_apply]
  unfold Cert.Mlp.out Cert.Mlp.hid
  simp only [hx]

/-- The same at an index of the block and an index of the slab in the same column. -/
theorem entry_at (x0 : Vec Ideal S4096x100 .f32) (x1 : Vec Ideal S100x128 .f32) (x2 : Vec Ideal S1x128 .f32)
    (x3 : Vec Ideal S128x128 .f32) (X : S262144x100.Idx → EReal) (y : S4096x128.Idx) (i : S262144x128.Idx)
    (hx : ∀ k : Fin 100, x0 (ix2 (y 0) k) = X (ix2 (i 0) k)) (hq : (y 1).val = (i 1).val) :
    k0_pay1 (F := Ideal) x0 x1 x2 x3 y = Cert.Mlp.out X x1 x2 x3 (i 0) (i 1) := by
  refine (congrArg _ (eq_ix2 y)).trans ((entry_of_rows x0 x1 x2 x3 X (y 0) (y 1) (i 0) hx).trans ?_)
  exact congrArg (Cert.Mlp.out X x1 x2 x3 (i 0)) (Fin.ext hq)

/-- The weight and bias windows hold the whole array at every step: block (0, 0) of full size, read at the same index. -/
theorem w1_block (c : Dev nD) (t : Fin cfg0.N) : (iblk m c 1 t : S100x128.Idx → EReal) = V m c main_v2 := by
  obtain ⟨-, -, e0, e1, -⟩ := block_index t
  funext j
  show V m c main_v2 (((cfg0.win 1).blk t).view.emb j) = V m c main_v2 j
  refine congrArg _ (funext fun a => Fin.ext ?_)
  match a with
  | ⟨0, _⟩ => show win0_1.index t (0 : Fin 2) * 100 + 1 * (j 0).val = (j 0).val; omega
  | ⟨1, _⟩ => show win0_1.index t (1 : Fin 2) * 128 + 1 * (j 1).val = (j 1).val; omega

theorem b1_block (c : Dev nD) (t : Fin cfg0.N) : (iblk m c 2 t : S1x128.Idx → EReal) = V m c main_v9 := by
  obtain ⟨-, -, -, -, e0, e1, -⟩ := block_index t
  funext j
  show V m c main_v9 (((cfg0.win 2).blk t).view.emb j) = V m c main_v9 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem w2_block (c : Dev nD) (t : Fin cfg0.N) : (iblk m c 3 t : S128x128.Idx → EReal) = V m c main_v19 := by
  obtain ⟨-, -, -, -, -, -, e0, e1, -⟩ := block_index t
  funext j
  show V m c main_v19 (((cfg0.win 3).blk t).view.emb j) = V m c main_v19 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Row p of step t's block of x is row 4096·t + p of x. -/
theorem x_block (c : Dev nD) (t : Fin cfg0.N) (p : Fin 4096) (k : Fin 100) (r : Fin 262144) (hr : r.val = 4096 * t.val + p.val) :
    (iblk m c 0 t : S4096x100.Idx → EReal) (ix2 p k) = V m c main_arg0 (ix2 r k) := by
  obtain ⟨e0, e1, -⟩ := block_index t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 4096 + 1 * p.val = r.val; omega
  | ⟨1, _⟩ => show win0_0.index t (1 : Fin 2) * 100 + 1 * k.val = k.val; omega

/-- What step t writes back is its rows of the slab. -/
theorem step_writes (c : Dev nD) (t : Fin cfg0.N) :
    (dats m 0 c).flushed 4 t = ((cfg0.win 4).blk t).view.read (Elt Ideal) (slab m c) := by
  show (cfg0.win 4).cut (grid0.coords t) ((dats m 0 c).after 4 t) = _
  rw [after0_4]
  unfold out0_4
  rw [View.canon_unit_zero zeros]
  simp only [View.ld_unit_zero (S := S4096x100) zeros, View.ld_unit_zero (S := S100x128) zeros,
    View.ld_unit_zero (S := S1x128) zeros, View.ld_unit_zero (S := S128x128) zeros]
  rw [w1_block, b1_block, w2_block]
  obtain ⟨-, -, -, -, -, -, -, -, e0, e1⟩ := block_index t
  funext y
  show k0_pay1 (F := Ideal) (iblk m c 0 t) (V m c main_v2) (V m c main_v9) (V m c main_v19) y
    = slab m c (((cfg0.win 4).blk t).view.emb y)
  have hr : ((((cfg0.win 4).blk t).view.emb y) 0).val = 4096 * t.val + (y 0).val := by
    show win0_4.index t (0 : Fin 2) * 4096 + 1 * (y 0).val = _; omega
  have hc : (y 1).val = ((((cfg0.win 4).blk t).view.emb y) 1).val := by
    show _ = win0_4.index t (1 : Fin 2) * 128 + 1 * (y 1).val; omega
  exact entry_at _ _ _ _ (V m c main_arg0) y (((cfg0.win 4).blk t).view.emb y)
    (fun k => x_block m c t (y 0) k _ hr) hc

/-- An index of the slab is in step t's block iff each coordinate is in the block's range on its axis. -/
theorem mem_rows (t : Fin cfg0.N) (i : S262144x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v20).slice (win0_4.rect t)).set ↔ _
  rw [View.set_slice_whole, Rect.mem_set_unit]
  exact Iff.rfl

/-- Every row of the slab belongs to a step: row r to step r / 4096. -/
theorem rows_covered (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hN : cfg0.N = 64 := N_0
  let t : Fin cfg0.N := ⟨(i 0).val / 4096, by rw [hN]; omega⟩
  have ht : t.val = (i 0).val / 4096 := rfl
  obtain ⟨-, -, -, -, -, -, -, -, e0, e1⟩ := block_index t
  refine ⟨t, flush0_4 t, ?_⟩
  rw [mem_rows]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The slab after the last grid step. -/
theorem final (c : Dev nD) : (dats m 0 c).arrAt 4 cfg0.N = slab m c :=
  (dats m 0 c).arrAt_eq_of_cover 4 (slab m c) (fun t _ => step_writes m c t) rows_covered

/-- The result: the slab's first ten columns. -/
def res (c : Dev nD) : S262144x10.Idx → EReal := fun i => slab m c (ix2 (i 0) (Fin.castLE (by decide) (i 1)))

/-- After the host's slice the result array holds the slab's first ten columns. -/
theorem kept_columns (c : Dev nD) :
    Pipeline.afterTail₀ cfgs (dats m) 0 (V0 m) [hostOps1] c main_v21 = res m c := by
  unfold Pipeline.afterTail₀
  show StableHlo.after hostOps1 _ (Proc.devRef .tc main_v21) = _
  after_results
  have hs : Pipeline.withArrays (cfgs 0).spec c (V0 m c) (fun w => (dats m 0 c).arrAt w (cfgs 0).N)
      (Proc.devRef .tc main_v20) = slab m c :=
    (Pipeline.withArrays_arr spec0 launch0.win.arr_inj c _ _ 4).trans (final m c)
  rw [hs]
  funext j
  refine (extractStridedSlice_apply _ _ _ j (ix2 (j 0) (Fin.castLE (by decide) (j 1))) fun a => ?_).trans rfl
  match a with
  | ⟨0, _⟩ => show (j 0).val = 0 + (j 0).val; omega
  | ⟨1, _⟩ => show (j 1).val = 0 + (j 1).val; omega

/-- The run: the result array at `res`, the arguments unchanged. -/
theorem run : θ_run defs (onTc (τ := τ) (main (F := Ideal))) ⟨m, fun _ => 0, ρ⟩ fun r => ∀ c : Dev nD,
      r.2.mem ((c : Thread nD τ).loc main_v21) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v21 (Pipeline.mem_restRefs_of main_v21 (by decide) (by decide))).trans (kept_columns m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Whole

end
-- ==== Proof.lean ====
/-
  The kernel and its reference are the same two-layer perceptron  y = relu(x · w1 + b1) · w2 + b2  on
  x : [262144, 100], w1 : [100, 32], b1 : [1, 32], w2 : [32, 10], b2 : [1, 10], over the extended reals.

  Both pad the hidden axis to 128 lanes with zeros and run the network in one pass over row blocks of x (32 blocks of
  8192 rows in the kernel, 64 blocks of 4096 rows in the reference); the changes of float format the kernel makes
  are the identity on the extended reals and the products into a zero accumulator are exact sums.  The kernel adds
  the padded output bias after the second product and writes the first ten columns.  The reference carries the
  output bias on the spare hidden lane 32 — first-layer bias one there, so the lane is relu(0 + 1) = 1, and row 32 of
  the second layer holds b2 — writes all 128 columns, and keeps the first ten afterwards.  The two results are one
  function of the arguments (`Cert.Mlp.result`): the sums over the hidden lanes differ only in lane 32's term, which
  is 0 in the kernel and 1 · b2 in the reference (`Cert.Mlp.folded_eq`).  No entry needs to be finite for this:
  a product with a padding zero is zero on all extended reals.

  The three programs' runs terminate with their arguments unchanged; the idealized kernel is the kernel's own text
  read over the extended reals, with no rewrite to account for.
-/
import proofs.«132224_g2000401138181295_pallasbulk_285_2_alg».proof.Defs
import proofs.«132224_g2000401138181295_pallasbulk_285_2_alg».proof.Proof.Gen.Kernel
import proofs.«132224_g2000401138181295_pallasbulk_285_2_alg».proof.Proof.Gen.Kernel.Frame
import proofs.«132224_g2000401138181295_pallasbulk_285_2_alg».proof.Proof.Gen.KernelIdeal
import proofs.«132224_g2000401138181295_pallasbulk_285_2_alg».proof.Proof.Gen.KernelIdeal.Frame
import proofs.«132224_g2000401138181295_pallasbulk_285_2_alg».proof.Proof.Gen.KernelIdeal.Value
import proofs.«132224_g2000401138181295_pallasbulk_285_2_alg».proof.Proof.Gen.ReferenceIdeal
import proofs.«132224_g2000401138181295_pallasbulk_285_2_alg».proof.Proof.Gen.ReferenceIdeal.Frame
import proofs.«132224_g2000401138181295_pallasbulk_285_2_alg».proof.Proof.Gen.Pre_finite_inputs
import proofs.«132224_g2000401138181295_pallasbulk_285_2_alg».proof.Proof.Spec
import proofs.«132224_g2000401138181295_pallasbulk_285_2_alg».proof.Proof.KernelPads
import proofs.«132224_g2000401138181295_pallasbulk_285_2_alg».proof.Proof.KernelWhole
import proofs.«132224_g2000401138181295_pallasbulk_285_2_alg».proof.Proof.RefPads
import proofs.«132224_g2000401138181295_pallasbulk_285_2_alg».proof.Proof.RefWhole
import Idealize.ShloMosaic.Adequacy
import Idealize.ShloMosaic.Init

noncomputable section

namespace Cert.Proof

open Idealize.ShloMosaic Idealize.ShloMosaic.TcCoe Idealize.SL.Sem

/-- The kernel's output array is the network's output of its arguments: each padded array is the argument padded
    with zeros, and x is as launched. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.arr m c
      = Cert.Mlp.result (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  funext i
  unfold Cert.KernelIdeal.Whole.arr Cert.Mlp.result
  rw [Cert.KernelIdeal.Pads.w1p, Cert.KernelIdeal.Pads.b1p, Cert.KernelIdeal.Pads.w2p, Cert.KernelIdeal.Pads.b2p,
    Cert.KernelIdeal.Gen.V_main_arg0]

/-- The reference's result is the same function of its arguments: on the first ten columns the bias carried on the
    spare hidden lane is the bias added after the product. -/
theorem reference_result (m : (ℓ : Loc Cert.ReferenceIdeal.nD Cert.ReferenceIdeal.τ Cert.ReferenceIdeal.sig) → Buf (Elt Ideal) ℓ)
    (c : Dev Cert.ReferenceIdeal.nD) :
    Cert.ReferenceIdeal.Whole.res m c
      = Cert.Mlp.result (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4)) := by
  funext i
  unfold Cert.ReferenceIdeal.Whole.res Cert.ReferenceIdeal.Whole.slab Cert.Mlp.result
  rw [Cert.ReferenceIdeal.Pads.w1p, Cert.ReferenceIdeal.Pads.b1one, Cert.ReferenceIdeal.Pads.w2fold,
    Cert.ReferenceIdeal.Gen.V_main_arg0]
  exact Cert.Mlp.folded_eq _ _ _ _ _ _ _ (ValueIdx.idx2_lt1 i)

/-- Run from memories that agree on the arguments, both programs end with the network's output of those arguments. -/
theorem algebraic : Cert.algebraic_KernelIdeal_ReferenceIdeal := by
  intro m ρ m' ρ' _ hagree
  refine ⟨fun c => Cert.Mlp.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono (fun r h c => ⟨(h c).1.trans (kernel_result m c), (h c).2⟩)
      (Cert.KernelIdeal.Whole.run m ρ)
  · refine (θ_run Cert.ReferenceIdeal.defs _ _).mono (fun r h c => ⟨(h c).1.trans ?_, (h c).2⟩)
      (Cert.ReferenceIdeal.Whole.run m' ρ')
    rw [reference_result m' c, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
